-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v62) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S1x512x16 : S_.BroadcastsInDim S1x512x16 (![] : Fin 0 → Fin S1x512x16.rank)
  reducesTo_S1x512x16_S_d0_1_2 : S1x512x16.ReducesTo [0, 1, 2] S_
  bcast_S_S1x16 : S_.BroadcastsInDim S1x16 (![] : Fin 0 → Fin S1x16.rank)
  reducesTo_S1x16_S_d0_1 : S1x16.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_arg6 : FVec F S1x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S64x512x32x32 .f32) (main_arg1 : FVec F S1x512x16 .f32) (main_arg2 : FVec F S1x16 .f32) (main_arg3 : FVec F S1x512 .f32) (main_arg4 : FVec F S1x512 .f32) (main_arg5 : FVec F S1x512 .f32) (main_arg6 : FVec F S1x512 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S1x512x16 .f32 := Host.absf main_arg1
  let main_cst_0 : FVec F S_ .f32 := constant S_ .f32 0x7F800000#32
  let main_v5 : FVec F S1x512x16 .f32 := broadcastInDim S1x512x16 ![] bcast_S_S1x512x16 main_cst_0
  let main_v6 : IVec S1x512x16 1 := cmpf .olt main_v4 main_v5
  let main_c_1 : IVec S_ 1 := constantI S_ 1 1#1
  let main_v7 : IVec S_ 1 := (fun x v => Host.reduce IntOp.andi x v reducesTo_S1x512x16_S_d0_1_2 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Kernel.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S64x512x1024 : Shape := ⟨3, ![64, 512, 1024]⟩
abbrev S64x512 : Shape := ⟨2, ![64, 512]⟩
abbrev S8x128x1024 : Shape := ⟨3, ![8, 128, 1024]⟩
abbrev S8x128 : Shape := ⟨2, ![8, 128]⟩
abbrev S_ : Shape := ⟨0, ![]⟩
abbrev S512 : Shape := ⟨1, ![512]⟩
abbrev S1x64x512 : Shape := ⟨3, ![1, 64, 512]⟩
abbrev S1x1x512 : Shape := ⟨3, ![1, 1, 512]⟩
abbrev S1x16x512 : Shape := ⟨3, ![1, 16, 512]⟩
abbrev S1x16x1 : Shape := ⟨3, ![1, 16, 1]⟩
abbrev S1x64x16 : Shape := ⟨3, ![1, 64, 16]⟩
abbrev S1x1x16 : Shape := ⟨3, ![1, 1, 16]⟩
abbrev S1x64 : Shape := ⟨2, ![1, 64]⟩
abbrev S1x64x1 : Shape := ⟨3, ![1, 64, 1]⟩

abbrev nBuf : Space → Nat
  | .hbm => 106
  | .vmem => 6
  | .smem => 0
  | _ => 0

abbrev bufTy : (tb : Table) → Fin (tcTables nBuf tb) → BufTy
  | .hbm, ⟨0, _⟩ => ⟨S64x512x32x32, .f32⟩
  | .hbm, ⟨1, _⟩ => ⟨S1x512x16, .f32⟩
  | .hbm, ⟨2, _⟩ => ⟨S1x16, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S64x512x1024, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S64x512, .f32⟩
  | .hbm, ⟨28, _⟩ => ⟨S64x512, .f32⟩
  | .hbm, ⟨29, _⟩ => ⟨S1x64x512, .f32⟩
  | .hbm, ⟨30, _⟩ => ⟨S1x1x512, .f32⟩
  | .hbm, ⟨31, _⟩ => ⟨S1x64x512, .f32⟩
  | .hbm, ⟨32, _⟩ => ⟨S1x64x512, .f32⟩
  | .hbm, ⟨33, _⟩ => ⟨S1x1x512, .f32⟩
  | .hbm, ⟨34, _⟩ => ⟨S1x64x512, .f32⟩
  | .hbm, ⟨35, _⟩ => ⟨S1x64x512, .f32⟩
  | .hbm, ⟨36, _⟩ => ⟨S1x1x512, .f32⟩
  | .hbm, ⟨37, _⟩ => ⟨S1x64x512, .f32⟩
  | .hbm, ⟨38, _⟩ => ⟨S1x64x512, .f32⟩
  | .hbm, ⟨39, _⟩ => ⟨S1x1x512, .f32⟩
  | .hbm, ⟨40, _⟩ => ⟨S1x64x512, .f32⟩
  | .hbm, ⟨41, _⟩ => ⟨S1x64x512, .f32⟩
  | .hbm, ⟨42, _⟩ => ⟨S1x16x512, .f32⟩
  | .hbm, ⟨43, _⟩ => ⟨S_, .f32⟩
  | .hbm, ⟨44, _⟩ => ⟨S1x16, .f32⟩
  | .hbm, ⟨45, _⟩ => ⟨S1x16x1, .f32⟩
  | .hbm, ⟨46, _⟩ => ⟨S_, .f32⟩
  | .hbm, ⟨47, _⟩ => ⟨S1x16x1, .f32⟩
  | .hbm, ⟨48, _⟩ => ⟨S1x16x1, .f32⟩
  | .hbm, ⟨49, _⟩ => ⟨S_, .i32⟩
  | .hbm, ⟨50, _⟩ => ⟨S_, .f32⟩
  | .hbm, ⟨51, _⟩ => ⟨S1x16, .f32⟩
  | .hbm, ⟨52, _⟩ => ⟨S1x16x1, .f32⟩
  | .hbm, ⟨53, _⟩ => ⟨S_, .f32⟩
  | .hbm, ⟨54, _⟩ => ⟨S1x16x1, .f32⟩
  | .hbm, ⟨55, _⟩ => ⟨S1x16x1, .f32⟩
  | .hbm, ⟨56, _⟩ => ⟨S1x16x512, .f32⟩
  | .hbm, ⟨57, _⟩ => ⟨S1x16x512, .f32⟩
  | .hbm, ⟨58, _⟩ => ⟨S1x16x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x16, .f32⟩
  | .hbm, ⟨64, _⟩ => ⟨S1x16x1, .f32⟩
  | .hbm, ⟨65, _⟩ => ⟨S1x16x1, .f32⟩
  | .hbm, ⟨66, _⟩ => ⟨S1x16x1, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S1x16x1, .f32⟩
  | .hbm, ⟨72, _⟩ => ⟨S1x16x1, .f32⟩
  | .hbm, ⟨73, _⟩ => ⟨S1x16x512, .f32⟩
  | .hbm, ⟨74, _⟩ => ⟨S1x16x512, .f32⟩
  | .hbm, ⟨75, _⟩ => ⟨S_, .f32⟩
  | .hbm, ⟨76, _⟩ => ⟨S1x16x1, .f32⟩
  | .hbm, ⟨77, _⟩ => ⟨S1x16x1, .f32⟩
  | .hbm, ⟨78, _⟩ => ⟨S1x16x1, .f32⟩
  | .hbm, ⟨79, _⟩ => ⟨S1x16x512, .f32⟩
  | .hbm, ⟨80, _⟩ => ⟨S1x16x512, .f32⟩
  | .hbm, ⟨81, _⟩ => ⟨S1x1x512, .f32⟩
  | .hbm, ⟨82, _⟩ => ⟨S1x16x512, .f32⟩
  | .hbm, ⟨83, _⟩ => ⟨S1x16x512, .f32⟩
  | .hbm, ⟨84, _⟩ => ⟨S1x1x512, .f32⟩
  | .hbm, ⟨85, _⟩ => ⟨S1x16x512, .f32⟩
  | .hbm, ⟨86, _⟩ => ⟨S1x16x512, .f32⟩
  | .hbm, ⟨87, _⟩ => ⟨S1x512x16, .f32⟩
  | .hbm, ⟨88, _⟩ => ⟨S1x64x16, .f32⟩
  | .hbm, ⟨89, _⟩ => ⟨S1x1x16, .f32⟩
  | .hbm, ⟨90, _⟩ => ⟨S1x64x16, .f32⟩
  | .hbm, ⟨91, _⟩ => ⟨S1x64x16, .f32⟩
  | .hbm, ⟨92, _⟩ => ⟨S_, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S1x64x1, .f32⟩
  | .hbm, ⟨98, _⟩ => ⟨S1x64x16, .f32⟩
  | .hbm, ⟨99, _⟩ => ⟨S1x64x16, .f32⟩
  | .hbm, ⟨100, _⟩ => ⟨S1x64x16, .f32⟩
  | .hbm, ⟨101, _⟩ => ⟨S_, .f32⟩
  | .hbm, ⟨102, _⟩ => ⟨S1x64, .f32⟩
  | .hbm, ⟨103, _⟩ => ⟨S1x64x1, .f32⟩
  | .hbm, ⟨104, _⟩ => ⟨S1x64x16, .f32⟩
  | .hbm, ⟨105, _⟩ => ⟨S1x64x16, .f32⟩
  | .local _ .vmem, ⟨0, _⟩ => ⟨S8x128x1024, .f32⟩
  | .local _ .vmem, ⟨1, _⟩ => ⟨S8x128x1024, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_cst_3 : Ref sig .tc := ⟨.hbm, 67, rfl⟩
abbrev main_call0_v13 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_7 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_8 : Ref sig .tc := ⟨.hbm, 92, rfl⟩
abbrev main_v52 : Ref sig .tc := ⟨.hbm, 93, rfl⟩
abbrev main_cst_9 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_10 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x512x32x32_S64x512x1024 : S64x512x32x32.ShapeCasts S64x512x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  reducesTo_S64x512_S512_d0 : S64x512.ReducesTo [0] S512
  h_S_ : 0 < S_.numel
  bcast_S_S512 : S_.BroadcastsInDim S512 (![] : Fin 0 → Fin S512.rank)
  bcast_S_S64x512 : S_.BroadcastsInDim S64x512 (![] : Fin 0 → Fin S64x512.rank)
  bcast_S64x512_S1x64x512_1_2 : S64x512.BroadcastsInDim S1x64x512 (![1, 2] : Fin 2 → Fin S1x64x512.rank)
  bcast_S512_S1x1x512_2 : S512.BroadcastsInDim S1x1x512 (![2] : Fin 1 → Fin S1x1x512.rank)
  bcast_S1x1x512_S1x64x512_0_1_2 : S1x1x512.BroadcastsInDim S1x64x512 (![0, 1, 2] : Fin 3 → Fin S1x64x512.rank)
  bcast_S1x512_S1x1x512_0_2 : S1x512.BroadcastsInDim S1x1x512 (![0, 2] : Fin 2 → Fin S1x1x512.rank)
  transposes_S1x512x16_S1x16x512_0_2_1 : S1x512x16.Transposes [0, 2, 1] S1x16x512
  reducesTo_S1x16x512_S1x16_d2 : S1x16x512.ReducesTo [2] S1x16
  bcast_S1x16_S1x16x1_0_1 : S1x16.BroadcastsInDim S1x16x1 (![0, 1] : Fin 2 → Fin S1x16x1.rank)
  bcast_S_S1x16x1 : S_.BroadcastsInDim S1x16x1 (![] : Fin 0 → Fin S1x16x1.rank)
  bcast_S1x16x1_S1x16x512_0_1_2 : S1x16x1.BroadcastsInDim S1x16x512 (![0, 1, 2] : Fin 3 → Fin S1x16x512.rank)
  bcast_S1x1x512_S1x16x512_0_1_2 : S1x1x512.BroadcastsInDim S1x16x512 (![0, 1, 2] : Fin 3 → Fin S1x16x512.rank)
  transposes_S1x16x512_S1x512x16_0_2_1 : S1x16x512.Transposes [0, 2, 1] S1x512x16
  bcast_S1x16_S1x1x16_0_2 : S1x16.BroadcastsInDim S1x1x16 (![0, 2] : Fin 2 → Fin S1x1x16.rank)
  bcast_S1x1x16_S1x64x16_0_1_2 : S1x1x16.BroadcastsInDim S1x64x16 (![0, 1, 2] : Fin 3 → Fin S1x64x16.rank)
  reducesTo_S1x64x16_S1x64_d2 : S1x64x16.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x16_0_1_2 : S1x64x1.BroadcastsInDim S1x64x16 (![0, 1, 2] : Fin 3 → Fin S1x64x16.rank)
  dot_S1x64x512_S1x512x16_S1x64x16_2_1_1_2_0_0_wf : DotDims.WF S1x64x512 S1x512x16 S1x64x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x512x1024.size a
  hwx0_0 : ∀ i : grid0.Coords, EltTy.bits .f32 = 32 ∨ (Rect.block (s := S64x512x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x512.size a
  hwx0_1 : ∀ i : grid0.Coords, EltTy.bits .f32 = 32 ∨ (Rect.block (s := S64x512) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x512.size a
  hwx0_2 : ∀ i : grid0.Coords, EltTy.bits .f32 = 32 ∨ (Rect.block (s := S64x512) S8x128.size (cc0_transform_2 i) (hinb0_2 i)).WholeWords (EltTy.packing .f32)

variable [Facts₀]

def dot_S1x64x512_S1x512x16_S1x64x16_2_1_1_2_0_0 : DotDims S1x64x512 S1x512x16 S1x64x16 where
  lhsContracting := [2]
  rhsContracting := [1]
  lhsNonContracting := [1]
  rhsNonContracting := [2]
  lhsBatch := [0]
  rhsBatch := [0]
  wf := dot_S1x64x512_S1x512x16_S1x64x16_2_1_1_2_0_0_wf

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S_ : Shape := ⟨0, ![]⟩
abbrev S512 : Shape := ⟨1, ![512]⟩
abbrev S1x512x1x1 : Shape := ⟨4, ![1, 512, 1, 1]⟩
abbrev S1x1x512x1x1 : Shape := ⟨5, ![1, 1, 512, 1, 1]⟩
abbrev S1x64x512x32x32 : Shape := ⟨5, ![1, 64, 512, 32, 32]⟩
abbrev S1x64x512 : Shape := ⟨3, ![1, 64, 512]⟩
abbrev S1x16x512 : Shape := ⟨3, ![1, 16, 512]⟩
abbrev S1x16x1 : Shape := ⟨3, ![1, 16, 1]⟩
abbrev S1x1x512 : Shape := ⟨3, ![1, 1, 512]⟩
abbrev S1x64x16 : Shape := ⟨3, ![1, 64, 16]⟩
abbrev S1x1x16 : Shape := ⟨3, ![1, 1, 16]⟩
abbrev S1x64 : Shape := ⟨2, ![1, 64]⟩
abbrev S1x64x1 : Shape := ⟨3, ![1, 64, 1]⟩

abbrev nBuf : Space → Nat
  | .hbm => 121
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S1x512x16, .f32⟩
  | .hbm, ⟨2, _⟩ => ⟨S1x16, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S1x512x1x1, .f32⟩
  | .hbm, ⟨16, _⟩ => ⟨S_, .f32⟩
  | .hbm, ⟨17, _⟩ => ⟨S1x512x1x1, .f32⟩
  | .hbm, ⟨18, _⟩ => ⟨S1x512x1x1, .f32⟩
  | .hbm, ⟨19, _⟩ => ⟨S64x512x32x32, .f32⟩
  | .hbm, ⟨20, _⟩ => ⟨S64x512x32x32, .f32⟩
  | .hbm, ⟨21, _⟩ => ⟨S64x512x32x32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512x1x1, .f32⟩
  | .hbm, ⟨36, _⟩ => ⟨S64x512x32x32, .f32⟩
  | .hbm, ⟨37, _⟩ => ⟨S64x512x32x32, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512x1x1, .f32⟩
  | .hbm, ⟨43, _⟩ => ⟨S64x512x32x32, .f32⟩
  | .hbm, ⟨44, _⟩ => ⟨S64x512x32x32, .f32⟩
  | .hbm, ⟨45, _⟩ => ⟨S1x1x512x1x1, .f32⟩
  | .hbm, ⟨46, _⟩ => ⟨S1x64x512x32x32, .f32⟩
  | .hbm, ⟨47, _⟩ => ⟨S1x64x512x32x32, .f32⟩
  | .hbm, ⟨48, _⟩ => ⟨S1x64x512x32x32, .f32⟩
  | .hbm, ⟨49, _⟩ => ⟨S1x1x512x1x1, .f32⟩
  | .hbm, ⟨50, _⟩ => ⟨S1x64x512x32x32, .f32⟩
  | .hbm, ⟨51, _⟩ => ⟨S1x64x512x32x32, .f32⟩
  | .hbm, ⟨52, _⟩ => ⟨S_, .f32⟩
  | .hbm, ⟨53, _⟩ => ⟨S1x64x512, .f32⟩
  | .hbm, ⟨54, _⟩ => ⟨S_, .f32⟩
  | .hbm, ⟨55, _⟩ => ⟨S1x64x512, .f32⟩
  | .hbm, ⟨56, _⟩ => ⟨S1x64x512, .f32⟩
  | .hbm, ⟨57, _⟩ => ⟨S1x16x512, .f32⟩
  | .hbm, ⟨58, _⟩ => ⟨S_, .f32⟩
  | .hbm, ⟨59, _⟩ => ⟨S1x16, .f32⟩
  | .hbm, ⟨60, _⟩ => ⟨S1x16x1, .f32⟩
  | .hbm, ⟨61, _⟩ => ⟨S_, .f32⟩
  | .hbm, ⟨62, _⟩ => ⟨S1x16x1, .f32⟩
  | .hbm, ⟨63, _⟩ => ⟨S1x16x1, .f32⟩
  | .hbm, ⟨64, _⟩ => ⟨S_, .i32⟩
  | .hbm, ⟨65, _⟩ => ⟨S_, .f32⟩
  | .hbm, ⟨66, _⟩ => ⟨S1x16, .f32⟩
  | .hbm, ⟨67, _⟩ => ⟨S1x16x1, .f32⟩
  | .hbm, ⟨68, _⟩ => ⟨S_, .f32⟩
  | .hbm, ⟨69, _⟩ => ⟨S1x16x1, .f32⟩
  | .hbm, ⟨70, _⟩ => ⟨S1x16x1, .f32⟩
  | .hbm, ⟨71, _⟩ => ⟨S1x16x512, .f32⟩
  | .hbm, ⟨72, _⟩ => ⟨S1x16x512, .f32⟩
  | .hbm, ⟨73, _⟩ => ⟨S1x16x512, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x16, .f32⟩
  | .hbm, ⟨79, _⟩ => ⟨S1x16x1, .f32⟩
  | .hbm, ⟨80, _⟩ => ⟨S1x16x1, .f32⟩
  | .hbm, ⟨81, _⟩ => ⟨S1x16x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S1x16x1, .f32⟩
  | .hbm, ⟨87, _⟩ => ⟨S1x16x1, .f32⟩
  | .hbm, ⟨88, _⟩ => ⟨S1x16x512, .f32⟩
  | .hbm, ⟨89, _⟩ => ⟨S1x16x512, .f32⟩
  | .hbm, ⟨90, _⟩ => ⟨S_, .f32⟩
  | .hbm, ⟨91, _⟩ => ⟨S1x16x1, .f32⟩
  | .hbm, ⟨92, _⟩ => ⟨S1x16x1, .f32⟩
  | .hbm, ⟨93, _⟩ => ⟨S1x16x1, .f32⟩
  | .hbm, ⟨94, _⟩ => ⟨S1x16x512, .f32⟩
  | .hbm, ⟨95, _⟩ => ⟨S1x16x512, .f32⟩
  | .hbm, ⟨96, _⟩ => ⟨S1x1x512, .f32⟩
  | .hbm, ⟨97, _⟩ => ⟨S1x16x512, .f32⟩
  | .hbm, ⟨98, _⟩ => ⟨S1x16x512, .f32⟩
  | .hbm, ⟨99, _⟩ => ⟨S1x1x512, .f32⟩
  | .hbm, ⟨100, _⟩ => ⟨S1x16x512, .f32⟩
  | .hbm, ⟨101, _⟩ => ⟨S1x16x512, .f32⟩
  | .hbm, ⟨102, _⟩ => ⟨S1x512x16, .f32⟩
  | .hbm, ⟨103, _⟩ => ⟨S1x64x16, .f32⟩
  | .hbm, ⟨104, _⟩ => ⟨S1x1x16, .f32⟩
  | .hbm, ⟨105, _⟩ => ⟨S1x64x16, .f32⟩
  | .hbm, ⟨106, _⟩ => ⟨S1x64x16, .f32⟩
  | .hbm, ⟨107, _⟩ => ⟨S_, .f32⟩
  | .hbm, ⟨108, _⟩ => ⟨S1x64, .f32⟩
  | .hbm, ⟨109, _⟩ => ⟨S_, .f32⟩
  | .hbm, ⟨110, _⟩ => ⟨S1x64, .f32⟩
  | .hbm, ⟨111, _⟩ => ⟨S1x64, .f32⟩
  | .hbm, ⟨112, _⟩ => ⟨S1x64x1, .f32⟩
  | .hbm, ⟨113, _⟩ => ⟨S1x64x16, .f32⟩
  | .hbm, ⟨114, _⟩ => ⟨S1x64x16, .f32⟩
  | .hbm, ⟨115, _⟩ => ⟨S1x64x16, .f32⟩
  | .hbm, ⟨116, _⟩ => ⟨S_, .f32⟩
  | .hbm, ⟨117, _⟩ => ⟨S1x64, .f32⟩
  | .hbm, ⟨118, _⟩ => ⟨S1x64x1, .f32⟩
  | .hbm, ⟨119, _⟩ => ⟨S1x64x16, .f32⟩
  | .hbm, ⟨120, _⟩ => ⟨S1x64x16, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_2 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_c_6 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_cst_1 : Ref sig .tc := ⟨.hbm, 75, rfl⟩
abbrev main_call1_v8 : Ref sig .tc := ⟨.hbm, 76, rfl⟩
abbrev main_call1_cst_2 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_cst_3 : Ref sig .tc := ⟨.hbm, 82, rfl⟩
abbrev main_call1_v13 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_cst_9 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_10 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩

abbrev nD : Nat := 1
abbrev τ : Topo := Topo.v7x

variable {F : FTy → Type} [FloatOps F]

class Facts₀ : Prop where
  reducesTo_S64x512x32x32_S512_d0_2_3 : S64x512x32x32.ReducesTo [0, 2, 3] S512
  h_S_ : 0 < S_.numel
  bcast_S_S512 : S_.BroadcastsInDim S512 (![] : Fin 0 → Fin S512.rank)
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S64x512x32x32_0_1_2_3 : S1x512x1x1.BroadcastsInDim S64x512x32x32 (![0, 1, 2, 3] : Fin 4 → Fin S64x512x32x32.rank)
  bcast_S1x512_S1x1x512x1x1_0_2 : S1x512.BroadcastsInDim S1x1x512x1x1 (![0, 2] : Fin 2 → Fin S1x1x512x1x1.rank)
  bcast_S64x512x32x32_S1x64x512x32x32_1_2_3_4 : S64x512x32x32.BroadcastsInDim S1x64x512x32x32 (![1, 2, 3, 4] : Fin 4 → Fin S1x64x512x32x32.rank)
  bcast_S1x1x512x1x1_S1x64x512x32x32_0_1_2_3_4 : S1x1x512x1x1.BroadcastsInDim S1x64x512x32x32 (![0, 1, 2, 3, 4] : Fin 5 → Fin S1x64x512x32x32.rank)
  reducesTo_S1x64x512x32x32_S1x64x512_d3_4 : S1x64x512x32x32.ReducesTo [3, 4] S1x64x512
  bcast_S_S1x64x512 : S_.BroadcastsInDim S1x64x512 (![] : Fin 0 → Fin S1x64x512.rank)
  transposes_S1x512x16_S1x16x512_0_2_1 : S1x512x16.Transposes [0, 2, 1] S1x16x512
  reducesTo_S1x16x512_S1x16_d2 : S1x16x512.ReducesTo [2] S1x16
  bcast_S1x16_S1x16x1_0_1 : S1x16.BroadcastsInDim S1x16x1 (![0, 1] : Fin 2 → Fin S1x16x1.rank)
  bcast_S_S1x16x1 : S_.BroadcastsInDim S1x16x1 (![] : Fin 0 → Fin S1x16x1.rank)
  bcast_S1x16x1_S1x16x512_0_1_2 : S1x16x1.BroadcastsInDim S1x16x512 (![0, 1, 2] : Fin 3 → Fin S1x16x512.rank)
  bcast_S1x512_S1x1x512_0_2 : S1x512.BroadcastsInDim S1x1x512 (![0, 2] : Fin 2 → Fin S1x1x512.rank)
  bcast_S1x1x512_S1x16x512_0_1_2 : S1x1x512.BroadcastsInDim S1x16x512 (![0, 1, 2] : Fin 3 → Fin S1x16x512.rank)
  transposes_S1x16x512_S1x512x16_0_2_1 : S1x16x512.Transposes [0, 2, 1] S1x512x16
  bcast_S1x16_S1x1x16_0_2 : S1x16.BroadcastsInDim S1x1x16 (![0, 2] : Fin 2 → Fin S1x1x16.rank)
  bcast_S1x1x16_S1x64x16_0_1_2 : S1x1x16.BroadcastsInDim S1x64x16 (![0, 1, 2] : Fin 3 → Fin S1x64x16.rank)
  reducesTo_S1x64x16_S1x64_d2 : S1x64x16.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x16_0_1_2 : S1x64x1.BroadcastsInDim S1x64x16 (![0, 1, 2] : Fin 3 → Fin S1x64x16.rank)
  dot_S1x64x512_S1x512x16_S1x64x16_2_1_1_2_0_0_wf : DotDims.WF S1x64x512 S1x512x16 S1x64x16 [2] [1] [1] [2] [0] [0]

variable [Facts₀]

def dot_S1x64x512_S1x512x16_S1x64x16_2_1_1_2_0_0 : DotDims S1x64x512 S1x512x16 S1x64x16 where
  lhsContracting := [2]
  rhsContracting := [1]
  lhsNonContracting := [1]
  rhsNonContracting := [2]
  lhsBatch := [0]
  rhsBatch := [0]
  wf := dot_S1x64x512_S1x512x16_S1x64x16_2_1_1_2_0_0_wf

class Facts : Prop extends Facts₀ where

variable [Facts]
-- ==== Proof.KFrame.lean ====
/-
  The reduction region and the host lines around it: every weakly fair execution of the program terminates, nothing
  faults, and the seven argument arrays end as they began.

  The program is: one reshape of x to 64 × 512 × 1024; the region, a grid of 8 × 4 points, point (i, j) reading the
  block of 8 batch rows and 128 channels [8i, 8i+8) × [128j, 128j+128) × [0, 1024) and writing, to the same block of
  two 64 × 512 arrays, each plane's sum and each plane's sum of squares; then 96 host lines that read those two
  arrays and the other six arguments and write only buffers of their own.  The body loads its whole input block,
  stores the two lane reductions over the whole of each output block (it also loads each output block first and
  drops the value), so what it leaves in an output buffer is one piece covering it.  The launch is the library's
  frame run for a region continued by host lines; the proof data name the arrays as the region finds them and what
  the body leaves per point; the lines after the region touch no scoped buffer, allocate nothing and write none of the
  pipeline's three arrays, and no line at all writes an argument.
-/
import proofs.«151176_j23983097381582_1_alg».proof.Proof.Gen.Kernel.Launch
import proofs.«151176_j23983097381582_1_alg».proof.Proof.Gen.Kernel.Skeleton
import proofs.«151176_j23983097381582_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch (the variance routine's lines are a stretch of their own). -/
abbrev tailOps : List (List (HloOp τ sig (Elt F))) := [hostOps1, hostOps1_1, hostOps1_2]

/-- Core `c`'s buffer contents when the region is entered: after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### What the lines touch, allocate and write -/

/-- No host line allocates a buffer. -/
private theorem hostOps0_fresh : (hostOps0 : List (HloOp τ sig (Elt F))).Forall fun op => op.fresh = ∅ := by
  simp only [List.Forall]; repeat' constructor
private theorem hostOps1_fresh : (hostOps1 : List (HloOp τ sig (Elt F))).Forall fun op => op.fresh = ∅ := by
  simp only [List.Forall]; repeat' constructor
private theorem hostOps1_1_fresh : (hostOps1_1 : List (HloOp τ sig (Elt F))).Forall fun op => op.fresh = ∅ := by
  simp only [List.Forall]; repeat' constructor
private theorem hostOps1_2_fresh : (hostOps1_2 : List (HloOp τ sig (Elt F))).Forall fun op => op.fresh = ∅ := by
  simp only [List.Forall]; repeat' constructor

/-- What holds of every line of each of the three stretches after the region holds of every line after it. -/
private theorem tail_forall {P : HloOp τ sig (Elt F) → Prop} (h1 : (hostOps1 : List (HloOp τ sig (Elt F))).Forall P)
    (h2 : (hostOps1_1 : List (HloOp τ sig (Elt F))).Forall P) (h3 : (hostOps1_2 : List (HloOp τ sig (Elt F))).Forall P) :
    ∀ ops ∈ (tailOps : List (List (HloOp τ sig (Elt F)))), ∀ op ∈ ops, P op := by
  intro ops hops op hop
  simp only [List.mem_cons, List.mem_nil_iff, or_false] at hops
  rcases hops with rfl | rfl | rfl
  · exact List.forall_iff_forall_mem.mp h1 op hop
  · exact List.forall_iff_forall_mem.mp h2 op hop
  · exact List.forall_iff_forall_mem.mp h3 op hop

/-- The ten buffers no line after the region writes: the seven arguments and the pipeline's three arrays. -/
private abbrev kept : List (Ref sig .tc) :=
  [main_arg0, main_arg1, main_arg2, main_arg3, main_arg4, main_arg5, main_arg6, main_v0, main_v1_0, main_v1_1]

private theorem arr_kept : ∀ w, Pipeline.arrRef spec0 w ∈ kept := by decide

/-- One of the ten is not a buffer outside the ten. -/
private theorem ne_of_kept {b y : Ref sig .tc} (hb : b ∈ kept) (hy : y ∉ kept) : b ≠ y := fun e => hy (e ▸ hb)

/-- Each line writes its own result buffer only, and no result buffer is one of the ten: stretch by stretch. -/
private theorem hostOps1_keeps {b : Ref sig .tc} (hb : b ∈ kept) :
    (hostOps1 : List (HloOp τ sig (Elt F))).Forall fun op => Proc.devRef .tc b ∉ op.writes := by
  simp only [hostOps1, List.Forall, StableHlo.nullary_writes, StableHlo.unary_writes, StableHlo.binary_writes,
    StableHlo.ternary_writes, Finset.mem_singleton]
  repeat' apply And.intro
  all_goals exact StableHlo.devRef_ne_of_ne (ne_of_kept hb (by decide))
private theorem hostOps1_1_keeps {b : Ref sig .tc} (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes,
    StableHlo.ternary_writes, Finset.mem_singleton]
  repeat' apply And.intro
  all_goals exact StableHlo.devRef_ne_of_ne (ne_of_kept hb (by decide))
private theorem hostOps1_2_keeps {b : Ref sig .tc} (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes,
    StableHlo.ternary_writes, Finset.mem_singleton]
  repeat' apply And.intro
  all_goals exact StableHlo.devRef_ne_of_ne (ne_of_kept hb (by decide))

/-- The one line before the region writes the reshaped input only: every other buffer is found as launched. -/
private theorem V_of_ne (c : Dev nD) {b : Ref sig .tc} (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact StableHlo.devRef_ne_of_ne hb))

/-- The program is the line before the region, the region, and the three stretches after it: it reduces to the region
    continued by those stretches. -/
private theorem hmain (𝒱₀ : Variants) : Pipeline.HMainK (Ix := Unit) (Name := ℕ) (U := UR sig nD τ) (Lvl := ℕ) cfgs 0 defs₀ 𝒱₀ m
      (main (F := F)) (V m) (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore references only: the arrays and the bypassing buffers, -/
private theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall hostOps1_sub hostOps1_1_sub hostOps1_2_sub ops hops op hop)
/-- allocate nothing, -/
private theorem sfx_fresh : ∀ ops ∈ (tailOps : List (List (HloOp τ sig (Elt F)))), ∀ op ∈ ops, op.fresh = ∅ :=
  tail_forall hostOps1_fresh hostOps1_1_fresh hostOps1_2_fresh
/-- and write no array of the pipeline. -/
private theorem sfx_keeps : ∀ ops ∈ (tailOps : List (List (HloOp τ sig (Elt F)))), ∀ op ∈ ops,
    ∀ w, Proc.devRef .tc (Pipeline.arrRef spec0 w) ∉ op.writes := fun ops hops op hop w =>
  tail_forall (P := fun op => Proc.devRef .tc (Pipeline.arrRef spec0 w) ∉ op.writes)
    (hostOps1_keeps (arr_kept w)) (hostOps1_1_keeps (arr_kept w)) (hostOps1_2_keeps (arr_kept w)) ops hops op hop

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output buffer -/

/-- The whole input block and the whole output block, as the body's rectangles. -/
abbrev rIn : Rect S8x128x1024 := Rect.unit (s := S8x128x1024) ![0, 0, 0] S8x128x1024.size inb_S8x128x1024_S8x128x1024_0_0_0
abbrev rOut : Rect S8x128 := Rect.unit (s := S8x128) ![0, 0] S8x128.size inb_S8x128_S8x128_0_0

/-- The first output buffer after the body: the plane sums of the input block, one piece. -/
def out0_1 (x0 : Vec F S8x128x1024 .f32) : Vec F S8x128 .f32 :=
  View.canon [⟨rOut, k0_pay2 (View.ld x0 rIn)⟩]
/-- The second output buffer after the body: the plane sums of squares of the input block, one piece. -/
def out0_2 (x0 : Vec F S8x128x1024 .f32) : Vec F S8x128 .f32 :=
  View.canon [⟨rOut, k0_pay3 (View.ld x0 rIn)⟩]

/-! ## The pipeline's proof data -/

/-- The arrays as the region finds them; after the body at point `t` the input buffer at its block and each output
    buffer at the reductions of that block; nothing of the kernel's own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-! ## The arguments after the lines that follow the region -/

/-- One of the ten that is no array of the pipeline ends at what the region found in it. -/
private theorem W_of_kept (c : Dev nD) {b : Ref sig .tc} (hb : b ∈ kept) (harr : ∀ w, Pipeline.arrRef spec0 w ≠ b) :
    Pipeline.afterTail₀ cfgs (dats m) 0 (V0 m) tailOps c b = V m c b := by
  have hw : ∀ op ∈ (tailOps : List (List (HloOp τ sig (Elt F)))).flatten, Proc.devRef .tc b ∉ op.writes := fun op hop => by
    obtain ⟨ops, hops, hop⟩ := List.mem_flatten.mp hop
    exact tail_forall (hostOps1_keeps hb) (hostOps1_1_keeps hb) (hostOps1_2_keeps hb) ops hops op hop
  unfold Pipeline.afterTail₀
  rw [StableHlo.after_of_forall_not_mem (b := Proc.devRef .tc b) _ _ hw, Pipeline.withArrays_of_ne _ c (V0 m c) _ b harr]

/-! ## The body's triple -/

/-- One store over the whole output block covers it. -/
private theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body on whole staging memrefs, the input's at contents x0 and the outputs' at anything, runs to the continuation
    holding the input's as it was and each output's at the one piece its store leaves: the load of each output block before
    its store reads whatever is there and the value is dropped. -/
private theorem sound_kernel (c : Dev nD) (E : Set ℕ) (i : grid0.Coords)
    (arg2 : Memref sig .tc .vmem S8x128x1024 .f32) (harg2 : arg2.IsWhole)
    (arg3 : Memref sig .tc .vmem S8x128 .f32) (harg3 : arg3.IsWhole)
    (arg4 : Memref sig .tc .vmem S8x128 .f32) (harg4 : arg4.IsWhole)
    (x0 : Vec F S8x128x1024 .f32) (K : PUnit → sProp 𝕄) :
    iprop(owns (c : Thread nD τ) arg2 fullShare x0 ∗ (∃ d, owns (c : Thread nD τ) arg3 fullShare d)
        ∗ (∃ d, owns (c : Thread nD τ) arg4 fullShare d)
        ∗ (iprop(owns (c : Thread nD τ) arg2 fullShare x0 ∗ owns (c : Thread nD τ) arg3 fullShare (out0_1 x0)
            ∗ owns (c : Thread nD τ) arg4 fullShare (out0_2 x0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_out _)
  iexists _; isplitr
  swap; · iexact H2
  ipureintro
  exact View.read_writes_eq_canon _ _ _ (cover_out _)

/-! ## The body obligation, at a generic point -/

/-- The input's current staging buffer holds its block at every point, fetched there or not: unfetched, the block index
    has not moved; the window is uncut and never idle, and the body leaves the block in place. -/
private theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- What the body is called with at point t, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, so the triple applies; the invariant and what the core owes
    pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
private theorem body_obligation (c : Dev nD) : BodyObligation (dats (F := F) m 0 c) (defs₀ (F := F)) Variants.none () Set.univ := fun t => by
  rw [bigSep_W0, bigSep_W0]
  exact sound_body m c t

/-! ## The run and the frame -/

-- the library states the run over a family of configurations; matching its conclusion to the statement below needs
-- definitions unfolded inside the types of the arguments left implicit
set_option backward.isDefEq.respectTransparency.types false in
/-- Every weakly fair execution terminates, every array of the pipeline ends at what the library computes from the proof
    data, every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- No host line writes an argument array: after the lines that follow the region each holds its launch contents. -/
theorem W_main_arg0 (c : Dev nD) :
    Pipeline.afterTail₀ cfgs (dats m) 0 (V0 m) tailOps c main_arg0 = m ((c : Thread nD τ).loc main_arg0) :=
  (W_of_kept m c (by decide) (by decide)).trans (V_of_ne m c (by decide))
theorem W_main_arg1 (c : Dev nD) :
    Pipeline.afterTail₀ cfgs (dats m) 0 (V0 m) tailOps c main_arg1 = m ((c : Thread nD τ).loc main_arg1) :=
  (W_of_kept m c (by decide) (by decide)).trans (V_of_ne m c (by decide))
theorem W_main_arg2 (c : Dev nD) :
    Pipeline.afterTail₀ cfgs (dats m) 0 (V0 m) tailOps c main_arg2 = m ((c : Thread nD τ).loc main_arg2) :=
  (W_of_kept m c (by decide) (by decide)).trans (V_of_ne m c (by decide))
theorem W_main_arg3 (c : Dev nD) :
    Pipeline.afterTail₀ cfgs (dats m) 0 (V0 m) tailOps c main_arg3 = m ((c : Thread nD τ).loc main_arg3) :=
  (W_of_kept m c (by decide) (by decide)).trans (V_of_ne m c (by decide))
theorem W_main_arg4 (c : Dev nD) :
    Pipeline.afterTail₀ cfgs (dats m) 0 (V0 m) tailOps c main_arg4 = m ((c : Thread nD τ).loc main_arg4) :=
  (W_of_kept m c (by decide) (by decide)).trans (V_of_ne m c (by decide))
theorem W_main_arg5 (c : Dev nD) :
    Pipeline.afterTail₀ cfgs (dats m) 0 (V0 m) tailOps c main_arg5 = m ((c : Thread nD τ).loc main_arg5) :=
  (W_of_kept m c (by decide) (by decide)).trans (V_of_ne m c (by decide))
theorem W_main_arg6 (c : Dev nD) :
    Pipeline.afterTail₀ cfgs (dats m) 0 (V0 m) tailOps c main_arg6 = m ((c : Thread nD τ).loc main_arg6) :=
  (W_of_kept m c (by decide) (by decide)).trans (V_of_ne m c (by decide))

/-- Each argument is an unscoped buffer that is no array of the pipeline. -/
theorem mem_rest_arg0 : main_arg0 ∈ Pipeline.restRefs sig (cfgs 0).spec :=
  Pipeline.mem_restRefs_of main_arg0 (by decide) (by decide)
theorem mem_rest_arg1 : main_arg1 ∈ Pipeline.restRefs sig (cfgs 0).spec :=
  Pipeline.mem_restRefs_of main_arg1 (by decide) (by decide)
theorem mem_rest_arg2 : main_arg2 ∈ Pipeline.restRefs sig (cfgs 0).spec :=
  Pipeline.mem_restRefs_of main_arg2 (by decide) (by decide)
theorem mem_rest_arg3 : main_arg3 ∈ Pipeline.restRefs sig (cfgs 0).spec :=
  Pipeline.mem_restRefs_of main_arg3 (by decide) (by decide)
theorem mem_rest_arg4 : main_arg4 ∈ Pipeline.restRefs sig (cfgs 0).spec :=
  Pipeline.mem_restRefs_of main_arg4 (by decide) (by decide)
theorem mem_rest_arg5 : main_arg5 ∈ Pipeline.restRefs sig (cfgs 0).spec :=
  Pipeline.mem_restRefs_of main_arg5 (by decide) (by decide)
theorem mem_rest_arg6 : main_arg6 ∈ Pipeline.restRefs sig (cfgs 0).spec :=
  Pipeline.mem_restRefs_of main_arg6 (by decide) (by decide)

/-- THE FRAME, at any float instance: the run's post read at each argument, an unscoped buffer that is no array, which the
    lines after the region leave as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 mem_rest_arg0).trans (W_main_arg0 m c),
     ((h c).2 main_arg1 mem_rest_arg1).trans (W_main_arg1 m c),
     ((h c).2 main_arg2 mem_rest_arg2).trans (W_main_arg2 m c),
     ((h c).2 main_arg3 mem_rest_arg3).trans (W_main_arg3 m c),
     ((h c).2 main_arg4 mem_rest_arg4).trans (W_main_arg4 m c),
     ((h c).2 main_arg5 mem_rest_arg5).trans (W_main_arg5 m c),
     ((h c).2 main_arg6 mem_rest_arg6).trans (W_main_arg6 m c)⟩) (run_main m ρ)

end Cert.Kernel.Hand

end
-- ==== Proof.KIFrame.lean ====
/-
  The reduction region and the host lines around it: every weakly fair execution of the program terminates, nothing
  faults, and the seven argument arrays end as they began.

  The program is: one reshape of x to 64 × 512 × 1024; the region, a grid of 8 × 4 points, point (i, j) reading the
  block of 8 batch rows and 128 channels [8i, 8i+8) × [128j, 128j+128) × [0, 1024) and writing, to the same block of
  two 64 × 512 arrays, each plane's sum and each plane's sum of squares; then 96 host lines that read those two
  arrays and the other six arguments and write only buffers of their own.  The body loads its whole input block,
  stores the two lane reductions over the whole of each output block (it also loads each output block first and
  drops the value), so what it leaves in an output buffer is one piece covering it.  The launch is the library's
  frame run for a region continued by host lines; the proof data name the arrays as the region finds them and what
  the body leaves per point; the lines after the region touch no scoped buffer, allocate nothing and write none of the
  pipeline's three arrays, and no line at all writes an argument.
-/
import proofs.«151176_j23983097381582_1_alg».proof.Proof.Gen.KernelIdeal.Launch
import proofs.«151176_j23983097381582_1_alg».proof.Proof.Gen.KernelIdeal.Skeleton
import proofs.«151176_j23983097381582_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch (the variance routine's lines are a stretch of their own). -/
abbrev tailOps : List (List (HloOp τ sig (Elt F))) := [hostOps1, hostOps1_1, hostOps1_2]

/-- Core `c`'s buffer contents when the region is entered: after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ### What the lines touch, allocate and write -/

/-- No host line allocates a buffer. -/
private theorem hostOps0_fresh : (hostOps0 : List (HloOp τ sig (Elt F))).Forall fun op => op.fresh = ∅ := by
  simp only [List.Forall]; repeat' constructor
private theorem hostOps1_fresh : (hostOps1 : List (HloOp τ sig (Elt F))).Forall fun op => op.fresh = ∅ := by
  simp only [List.Forall]; repeat' constructor
private theorem hostOps1_1_fresh : (hostOps1_1 : List (HloOp τ sig (Elt F))).Forall fun op => op.fresh = ∅ := by
  simp only [List.Forall]; repeat' constructor
private theorem hostOps1_2_fresh : (hostOps1_2 : List (HloOp τ sig (Elt F))).Forall fun op => op.fresh = ∅ := by
  simp only [List.Forall]; repeat' constructor

/-- What holds of every line of each of the three stretches after the region holds of every line after it. -/
private theorem tail_forall {P : HloOp τ sig (Elt F) → Prop} (h1 : (hostOps1 : List (HloOp τ sig (Elt F))).Forall P)
    (h2 : (hostOps1_1 : List (HloOp τ sig (Elt F))).Forall P) (h3 : (hostOps1_2 : List (HloOp τ sig (Elt F))).Forall P) :
    ∀ ops ∈ (tailOps : List (List (HloOp τ sig (Elt F)))), ∀ op ∈ ops, P op := by
  intro ops hops op hop
  simp only [List.mem_cons, List.mem_nil_iff, or_false] at hops
  rcases hops with rfl | rfl | rfl
  · exact List.forall_iff_forall_mem.mp h1 op hop
  · exact List.forall_iff_forall_mem.mp h2 op hop
  · exact List.forall_iff_forall_mem.mp h3 op hop

/-- The ten buffers no line after the region writes: the seven arguments and the pipeline's three arrays. -/
private abbrev kept : List (Ref sig .tc) :=
  [main_arg0, main_arg1, main_arg2, main_arg3, main_arg4, main_arg5, main_arg6, main_v0, main_v1_0, main_v1_1]

private theorem arr_kept : ∀ w, Pipeline.arrRef spec0 w ∈ kept := by decide

/-- One of the ten is not a buffer outside the ten. -/
private theorem ne_of_kept {b y : Ref sig .tc} (hb : b ∈ kept) (hy : y ∉ kept) : b ≠ y := fun e => hy (e ▸ hb)

/-- Each line writes its own result buffer only, and no result buffer is one of the ten: stretch by stretch. -/
private theorem hostOps1_keeps {b : Ref sig .tc} (hb : b ∈ kept) :
    (hostOps1 : List (HloOp τ sig (Elt F))).Forall fun op => Proc.devRef .tc b ∉ op.writes := by
  simp only [hostOps1, List.Forall, StableHlo.nullary_writes, StableHlo.unary_writes, StableHlo.binary_writes,
    StableHlo.ternary_writes, Finset.mem_singleton]
  repeat' apply And.intro
  all_goals exact StableHlo.devRef_ne_of_ne (ne_of_kept hb (by decide))
private theorem hostOps1_1_keeps {b : Ref sig .tc} (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes,
    StableHlo.ternary_writes, Finset.mem_singleton]
  repeat' apply And.intro
  all_goals exact StableHlo.devRef_ne_of_ne (ne_of_kept hb (by decide))
private theorem hostOps1_2_keeps {b : Ref sig .tc} (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes,
    StableHlo.ternary_writes, Finset.mem_singleton]
  repeat' apply And.intro
  all_goals exact StableHlo.devRef_ne_of_ne (ne_of_kept hb (by decide))

/-- The one line before the region writes the reshaped input only: every other buffer is found as launched. -/
private theorem V_of_ne (c : Dev nD) {b : Ref sig .tc} (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact StableHlo.devRef_ne_of_ne hb))

/-- The program is the line before the region, the region, and the three stretches after it: it reduces to the region
    continued by those stretches. -/
private theorem hmain (𝒱₀ : Variants) : Pipeline.HMainK (Ix := Unit) (Name := ℕ) (U := UR sig nD τ) (Lvl := ℕ) cfgs 0 defs₀ 𝒱₀ m
      (main (F := F)) (V m) (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore references only: the arrays and the bypassing buffers, -/
private theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall hostOps1_sub hostOps1_1_sub hostOps1_2_sub ops hops op hop)
/-- allocate nothing, -/
private theorem sfx_fresh : ∀ ops ∈ (tailOps : List (List (HloOp τ sig (Elt F)))), ∀ op ∈ ops, op.fresh = ∅ :=
  tail_forall hostOps1_fresh hostOps1_1_fresh hostOps1_2_fresh
/-- and write no array of the pipeline. -/
private theorem sfx_keeps : ∀ ops ∈ (tailOps : List (List (HloOp τ sig (Elt F)))), ∀ op ∈ ops,
    ∀ w, Proc.devRef .tc (Pipeline.arrRef spec0 w) ∉ op.writes := fun ops hops op hop w =>
  tail_forall (P := fun op => Proc.devRef .tc (Pipeline.arrRef spec0 w) ∉ op.writes)
    (hostOps1_keeps (arr_kept w)) (hostOps1_1_keeps (arr_kept w)) (hostOps1_2_keeps (arr_kept w)) ops hops op hop

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output buffer -/

/-- The whole input block and the whole output block, as the body's rectangles. -/
abbrev rIn : Rect S8x128x1024 := Rect.unit (s := S8x128x1024) ![0, 0, 0] S8x128x1024.size inb_S8x128x1024_S8x128x1024_0_0_0
abbrev rOut : Rect S8x128 := Rect.unit (s := S8x128) ![0, 0] S8x128.size inb_S8x128_S8x128_0_0

/-- The first output buffer after the body: the plane sums of the input block, one piece. -/
def out0_1 (x0 : Vec F S8x128x1024 .f32) : Vec F S8x128 .f32 :=
  View.canon [⟨rOut, k0_pay2 (View.ld x0 rIn)⟩]
/-- The second output buffer after the body: the plane sums of squares of the input block, one piece. -/
def out0_2 (x0 : Vec F S8x128x1024 .f32) : Vec F S8x128 .f32 :=
  View.canon [⟨rOut, k0_pay3 (View.ld x0 rIn)⟩]

/-! ## The pipeline's proof data -/

/-- The arrays as the region finds them; after the body at point `t` the input buffer at its block and each output
    buffer at the reductions of that block; nothing of the kernel's own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-! ## The arguments after the lines that follow the region -/

/-- One of the ten that is no array of the pipeline ends at what the region found in it. -/
private theorem W_of_kept (c : Dev nD) {b : Ref sig .tc} (hb : b ∈ kept) (harr : ∀ w, Pipeline.arrRef spec0 w ≠ b) :
    Pipeline.afterTail₀ cfgs (dats m) 0 (V0 m) tailOps c b = V m c b := by
  have hw : ∀ op ∈ (tailOps : List (List (HloOp τ sig (Elt F)))).flatten, Proc.devRef .tc b ∉ op.writes := fun op hop => by
    obtain ⟨ops, hops, hop⟩ := List.mem_flatten.mp hop
    exact tail_forall (hostOps1_keeps hb) (hostOps1_1_keeps hb) (hostOps1_2_keeps hb) ops hops op hop
  unfold Pipeline.afterTail₀
  rw [StableHlo.after_of_forall_not_mem (b := Proc.devRef .tc b) _ _ hw, Pipeline.withArrays_of_ne _ c (V0 m c) _ b harr]

/-! ## The body's triple -/

/-- One store over the whole output block covers it. -/
private theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body on whole staging memrefs, the input's at contents x0 and the outputs' at anything, runs to the continuation
    holding the input's as it was and each output's at the one piece its store leaves: the load of each output block before
    its store reads whatever is there and the value is dropped. -/
private theorem sound_kernel (c : Dev nD) (E : Set ℕ) (i : grid0.Coords)
    (arg2 : Memref sig .tc .vmem S8x128x1024 .f32) (harg2 : arg2.IsWhole)
    (arg3 : Memref sig .tc .vmem S8x128 .f32) (harg3 : arg3.IsWhole)
    (arg4 : Memref sig .tc .vmem S8x128 .f32) (harg4 : arg4.IsWhole)
    (x0 : Vec F S8x128x1024 .f32) (K : PUnit → sProp 𝕄) :
    iprop(owns (c : Thread nD τ) arg2 fullShare x0 ∗ (∃ d, owns (c : Thread nD τ) arg3 fullShare d)
        ∗ (∃ d, owns (c : Thread nD τ) arg4 fullShare d)
        ∗ (iprop(owns (c : Thread nD τ) arg2 fullShare x0 ∗ owns (c : Thread nD τ) arg3 fullShare (out0_1 x0)
            ∗ owns (c : Thread nD τ) arg4 fullShare (out0_2 x0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_out _)
  iexists _; isplitr
  swap; · iexact H2
  ipureintro
  exact View.read_writes_eq_canon _ _ _ (cover_out _)

/-! ## The body obligation, at a generic point -/

/-- The input's current staging buffer holds its block at every point, fetched there or not: unfetched, the block index
    has not moved; the window is uncut and never idle, and the body leaves the block in place. -/
private theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- What the body is called with at point t, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, so the triple applies; the invariant and what the core owes
    pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
private theorem body_obligation (c : Dev nD) : BodyObligation (dats (F := F) m 0 c) (defs₀ (F := F)) Variants.none () Set.univ := fun t => by
  rw [bigSep_W0, bigSep_W0]
  exact sound_body m c t

/-! ## The run and the frame -/

-- the library states the run over a family of configurations; matching its conclusion to the statement below needs
-- definitions unfolded inside the types of the arguments left implicit
set_option backward.isDefEq.respectTransparency.types false in
/-- Every weakly fair execution terminates, every array of the pipeline ends at what the library computes from the proof
    data, every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- No host line writes an argument array: after the lines that follow the region each holds its launch contents. -/
theorem W_main_arg0 (c : Dev nD) :
    Pipeline.afterTail₀ cfgs (dats m) 0 (V0 m) tailOps c main_arg0 = m ((c : Thread nD τ).loc main_arg0) :=
  (W_of_kept m c (by decide) (by decide)).trans (V_of_ne m c (by decide))
theorem W_main_arg1 (c : Dev nD) :
    Pipeline.afterTail₀ cfgs (dats m) 0 (V0 m) tailOps c main_arg1 = m ((c : Thread nD τ).loc main_arg1) :=
  (W_of_kept m c (by decide) (by decide)).trans (V_of_ne m c (by decide))
theorem W_main_arg2 (c : Dev nD) :
    Pipeline.afterTail₀ cfgs (dats m) 0 (V0 m) tailOps c main_arg2 = m ((c : Thread nD τ).loc main_arg2) :=
  (W_of_kept m c (by decide) (by decide)).trans (V_of_ne m c (by decide))
theorem W_main_arg3 (c : Dev nD) :
    Pipeline.afterTail₀ cfgs (dats m) 0 (V0 m) tailOps c main_arg3 = m ((c : Thread nD τ).loc main_arg3) :=
  (W_of_kept m c (by decide) (by decide)).trans (V_of_ne m c (by decide))
theorem W_main_arg4 (c : Dev nD) :
    Pipeline.afterTail₀ cfgs (dats m) 0 (V0 m) tailOps c main_arg4 = m ((c : Thread nD τ).loc main_arg4) :=
  (W_of_kept m c (by decide) (by decide)).trans (V_of_ne m c (by decide))
theorem W_main_arg5 (c : Dev nD) :
    Pipeline.afterTail₀ cfgs (dats m) 0 (V0 m) tailOps c main_arg5 = m ((c : Thread nD τ).loc main_arg5) :=
  (W_of_kept m c (by decide) (by decide)).trans (V_of_ne m c (by decide))
theorem W_main_arg6 (c : Dev nD) :
    Pipeline.afterTail₀ cfgs (dats m) 0 (V0 m) tailOps c main_arg6 = m ((c : Thread nD τ).loc main_arg6) :=
  (W_of_kept m c (by decide) (by decide)).trans (V_of_ne m c (by decide))

/-- Each argument is an unscoped buffer that is no array of the pipeline. -/
theorem mem_rest_arg0 : main_arg0 ∈ Pipeline.restRefs sig (cfgs 0).spec :=
  Pipeline.mem_restRefs_of main_arg0 (by decide) (by decide)
theorem mem_rest_arg1 : main_arg1 ∈ Pipeline.restRefs sig (cfgs 0).spec :=
  Pipeline.mem_restRefs_of main_arg1 (by decide) (by decide)
theorem mem_rest_arg2 : main_arg2 ∈ Pipeline.restRefs sig (cfgs 0).spec :=
  Pipeline.mem_restRefs_of main_arg2 (by decide) (by decide)
theorem mem_rest_arg3 : main_arg3 ∈ Pipeline.restRefs sig (cfgs 0).spec :=
  Pipeline.mem_restRefs_of main_arg3 (by decide) (by decide)
theorem mem_rest_arg4 : main_arg4 ∈ Pipeline.restRefs sig (cfgs 0).spec :=
  Pipeline.mem_restRefs_of main_arg4 (by decide) (by decide)
theorem mem_rest_arg5 : main_arg5 ∈ Pipeline.restRefs sig (cfgs 0).spec :=
  Pipeline.mem_restRefs_of main_arg5 (by decide) (by decide)
theorem mem_rest_arg6 : main_arg6 ∈ Pipeline.restRefs sig (cfgs 0).spec :=
  Pipeline.mem_restRefs_of main_arg6 (by decide) (by decide)

/-- THE FRAME, at any float instance: the run's post read at each argument, an unscoped buffer that is no array, which the
    lines after the region leave as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 mem_rest_arg0).trans (W_main_arg0 m c),
     ((h c).2 main_arg1 mem_rest_arg1).trans (W_main_arg1 m c),
     ((h c).2 main_arg2 mem_rest_arg2).trans (W_main_arg2 m c),
     ((h c).2 main_arg3 mem_rest_arg3).trans (W_main_arg3 m c),
     ((h c).2 main_arg4 mem_rest_arg4).trans (W_main_arg4 m c),
     ((h c).2 main_arg5 mem_rest_arg5).trans (W_main_arg5 m c),
     ((h c).2 main_arg6 mem_rest_arg6).trans (W_main_arg6 m c)⟩) (run_main m ρ)

end Cert.KernelIdeal.Hand

end
-- ==== Proof.KIHost.lean ====
/-
  What the host lines after the reduction region compute, as pure functions of the arrays they read.

  From the plane sums s₁, s₂ (64 × 512 each) and the affine parameters γ, β:
    μ = (Σ_b s₁)/65536, σ² = (Σ_b s₂)/65536 − μ², new_x = γ · ((s₁/1024 − μ) · rsqrt(σ² + ε)) + β.
  From new_x, the router weights W (1 × 512 × 16), the bias and the layer-norm parameters: the weights are
  normalized along their 512 axis (mean, biased variance, rsqrt, scale, shift), the logits are the batched
  product new_x · Ŵ plus the bias, and the probabilities are the softmax of the logits along the 16 axis
  (shifted by the row maximum).  Only `newX` is ever opened; the other two are carried as they are.
-/
import proofs.«151176_j23983097381582_1_alg».proof.Proof.Gen.KernelIdeal

noncomputable section

namespace Cert.KernelIdeal.Hand

open Idealize.ShloMosaic Cert.KernelIdeal Cert.KernelIdeal.Gen

variable {F : FTy → Type} [FloatOps F]

/-- A per-channel vector laid along every batch row. -/
def overBatch (v : FVec F S512 .f32) : FVec F S1x64x512 .f32 :=
  broadcastInDim S1x64x512 ![0, 1, 2] bcast_S1x1x512_S1x64x512_0_1_2 (broadcastInDim S1x1x512 ![2] bcast_S512_S1x1x512_2 v)

/-- A per-channel parameter row (1 × 512) laid along every batch row. -/
def paramOverBatch (v : FVec F S1x512 .f32) : FVec F S1x64x512 .f32 :=
  broadcastInDim S1x64x512 ![0, 1, 2] bcast_S1x1x512_S1x64x512_0_1_2 (broadcastInDim S1x1x512 ![0, 2] bcast_S1x512_S1x1x512_0_2 v)

/-- The sum over the batch axis divided by 65536. -/
def chanMean (s : FVec F S64x512 .f32) : FVec F S512 .f32 :=
  Host.divf (Host.reduceAdd s (constant S_ .f32 0x00000000#32) reducesTo_S64x512_S512_d0 h_S_)
    (broadcastInDim S512 ![] bcast_S_S512 (constant S_ .f32 0x47800000#32))

/-- σ² = E[x²] − μ². -/
def chanVar (s1 s2 : FVec F S64x512 .f32) : FVec F S512 .f32 :=
  subf (chanMean s2) (mulf (chanMean s1) (chanMean s1))

/-- rsqrt(σ² + ε). -/
def chanInvStd (s1 s2 : FVec F S64x512 .f32) : FVec F S512 .f32 :=
  Host.rsqrt (addf (chanVar s1 s2) (broadcastInDim S512 ![] bcast_S_S512 (constant S_ .f32 0x3727C5AC#32)))

/-- s₁ / 1024. -/
def pooled (s1 : FVec F S64x512 .f32) : FVec F S64x512 .f32 :=
  Host.divf s1 (broadcastInDim S64x512 ![] bcast_S_S64x512 (constant S_ .f32 0x44800000#32))

/-- new_x from the plane sums. -/
def newX (s1 s2 : FVec F S64x512 .f32) (g b : FVec F S1x512 .f32) : FVec F S1x64x512 .f32 :=
  addf (mulf (paramOverBatch g)
      (mulf (subf (broadcastInDim S1x64x512 ![1, 2] bcast_S64x512_S1x64x512_1_2 (pooled s1)) (overBatch (chanMean s1)))
        (overBatch (chanInvStd s1 s2))))
    (paramOverBatch b)

/-- The router weights transposed to 1 × 16 × 512. -/
def wT (w : FVec F S1x512x16 .f32) : FVec F S1x16x512 .f32 :=
  transpose S1x16x512 [0, 2, 1] w transposes_S1x512x16_S1x16x512_0_2_1

/-- A sum along the 512 axis of a 1 × 16 × 512 array divided by 512, kept as a 1 × 16 × 1 column. -/
def rowMean512 (v : FVec F S1x16x512 .f32) : FVec F S1x16x1 .f32 :=
  Host.divf (broadcastInDim S1x16x1 ![0, 1] bcast_S1x16_S1x16x1_0_1
      (Host.reduceAdd v (constant S_ .f32 0x00000000#32) reducesTo_S1x16x512_S1x16_d2 h_S_))
    (broadcastInDim S1x16x1 ![] bcast_S_S1x16x1 (constant S_ .f32 0x44000000#32))

/-- 512 minus the degrees-of-freedom correction (an integer word converted). -/
def dofCount (c : IVec S_ 32) : FVec F S_ .f32 :=
  subf (constant S_ .f32 0x44000000#32) (sitofp .f32 c)

/-- The biased variance along the 512 axis as the library's variance routine computes it: squared distance to
    the mean, summed, divided by the corrected count, and a not-a-number where that count is not positive. -/
def rowVar512 (v : FVec F S1x16x512 .f32) (c : IVec S_ 32) : FVec F S1x16x1 .f32 :=
  select (broadcastInDim S1x16x1 ![] bcast_S_S1x16x1 (cmpf .ogt (dofCount (F := F) c) (constant S_ .f32 0x00000000#32)))
    (Host.divf
      (broadcastInDim S1x16x1 ![0, 1] bcast_S1x16_S1x16x1_0_1
        (Host.reduceAdd
          (mulf (subf v (broadcastInDim S1x16x512 ![0, 1, 2] bcast_S1x16x1_S1x16x512_0_1_2 (rowMean512 v)))
            (subf v (broadcastInDim S1x16x512 ![0, 1, 2] bcast_S1x16x1_S1x16x512_0_1_2 (rowMean512 v))))
          (constant S_ .f32 0x00000000#32) reducesTo_S1x16x512_S1x16_d2 h_S_))
      (broadcastInDim S1x16x1 ![] bcast_S_S1x16x1 (dofCount (F := F) c)))
    (broadcastInDim S1x16x1 ![] bcast_S_S1x16x1 (id (constant S_ .f32 0x7FC00000#32)))

/-- A 1 × 512 parameter row laid along each of the 16 rows. -/
def paramOverRows (v : FVec F S1x512 .f32) : FVec F S1x16x512 .f32 :=
  broadcastInDim S1x16x512 ![0, 1, 2] bcast_S1x1x512_S1x16x512_0_1_2 (broadcastInDim S1x1x512 ![0, 2] bcast_S1x512_S1x1x512_0_2 v)

/-- The normalized router weights Ŵ (1 × 512 × 16). -/
def wHat (w : FVec F S1x512x16 .f32) (lg lb : FVec F S1x512 .f32) : FVec F S1x512x16 .f32 :=
  transpose S1x512x16 [0, 2, 1]
    (addf (mulf (mulf (subf (wT w) (broadcastInDim S1x16x512 ![0, 1, 2] bcast_S1x16x1_S1x16x512_0_1_2 (rowMean512 (wT w))))
        (broadcastInDim S1x16x512 ![0, 1, 2] bcast_S1x16x1_S1x16x512_0_1_2
          (Host.rsqrt (addf (rowVar512 (wT w) (constantI S_ 32 0#32))
            (broadcastInDim S1x16x1 ![] bcast_S_S1x16x1 (constant S_ .f32 0x3727C5AC#32))))))
      (paramOverRows lg)) (paramOverRows lb))
    transposes_S1x16x512_S1x512x16_0_2_1

/-- The logits: new_x · Ŵ + bias. -/
def logits (nx : FVec F S1x64x512 .f32) (w : FVec F S1x512x16 .f32) (bias : FVec F S1x16 .f32) (lg lb : FVec F S1x512 .f32) :
    FVec F S1x64x16 .f32 :=
  addf (Host.dotGeneral dot_S1x64x512_S1x512x16_S1x64x16_2_1_1_2_0_0 none nx (wHat w lg lb))
    (broadcastInDim S1x64x16 ![0, 1, 2] bcast_S1x1x16_S1x64x16_0_1_2 (broadcastInDim S1x1x16 ![0, 2] bcast_S1x16_S1x1x16_0_2 bias))

/-- A 1 × 64 row vector laid along the 16 axis. -/
def overAdapters (v : FVec F S1x64 .f32) : FVec F S1x64x16 .f32 :=
  broadcastInDim S1x64x16 ![0, 1, 2] bcast_S1x64x1_S1x64x16_0_1_2 (broadcastInDim S1x64x1 ![0, 1] bcast_S1x64_S1x64x1_0_1 v)

/-- exp(logits − rowmax). -/
def shiftedExp (l : FVec F S1x64x16 .f32) : FVec F S1x64x16 .f32 :=
  Host.exp (subf l (overAdapters
    (maximumf (broadcastInDim S1x64 ![] bcast_S_S1x64 (constant S_ .f32 0xFF800000#32))
      (Host.reduce FloatOps.maximumf l (constant S_ .f32 0xFF800000#32) reducesTo_S1x64x16_S1x64_d2 h_S_))))

/-- The softmax along the 16 axis. -/
def probs (l : FVec F S1x64x16 .f32) : FVec F S1x64x16 .f32 :=
  Host.divf (shiftedExp l)
    (overAdapters (Host.reduceAdd (shiftedExp l) (constant S_ .f32 0x00000000#32) reducesTo_S1x64x16_S1x64_d2 h_S_))

end Cert.KernelIdeal.Hand

end
-- ==== Proof.KITail.lean ====
/-
  The results of the kernel's program at the ideal instance, as terms of the two arrays the region wrote and of the
  arguments: the host lines after the region are straight-line, so each result buffer holds the composition of the
  operations that feed it — new_x of the two sum arrays and γ, β; the logits of new_x; the softmax of the logits —
  and the arguments are as launched.
-/
import proofs.«151176_j23983097381582_1_alg».proof.Proof.KIFrame
import proofs.«151176_j23983097381582_1_alg».proof.Proof.KIHost
import Idealize.ShloMosaic.PureOps.Ideal
import Idealize.ShloMosaic.Lib.StableHlo.Run

set_option maxRecDepth 16384

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- new_x as the program computes it: of the two arrays the region leaves and the affine parameters. -/
abbrev newXOf (c : Dev nD) : FVec Ideal S1x64x512 .f32 :=
  newX ((dats m 0 c).arrAt 1 cfg0.N) ((dats m 0 c).arrAt 2 cfg0.N) (m ((c.tc : Thread nD τ).loc main_arg3)) (m ((c.tc : Thread nD τ).loc main_arg4))
/-- The logits of that new_x. -/
abbrev logitsOf (c : Dev nD) : FVec Ideal S1x64x16 .f32 :=
  logits (newXOf m c) (m ((c.tc : Thread nD τ).loc main_arg1)) (m ((c.tc : Thread nD τ).loc main_arg2)) (m ((c.tc : Thread nD τ).loc main_arg5)) (m ((c.tc : Thread nD τ).loc main_arg6))

/-! ## The contents the lines after the region start from -/

/-- The core's buffers when the lines after the region start: the pipeline's three arrays as the region leaves them,
    every other buffer as at the region's entry. -/
private def W0 (c : Dev nD) : Valuation τ sig (Elt Ideal) :=
  Pipeline.withArrays (cfgs 0).spec c (V0 m c) fun w => (dats m 0 c).arrAt w (cfgs 0).N

/-- The two arrays the region wrote. -/
private theorem W0_s1 (c : Dev nD) : W0 m c (Proc.devRef .tc main_v1_0) = (dats m 0 c).arrAt 1 cfg0.N :=
  Pipeline.withArrays_arr spec0 launch0.win.arr_inj c _ _ 1
private theorem W0_s2 (c : Dev nD) : W0 m c (Proc.devRef .tc main_v1_1) = (dats m 0 c).arrAt 2 cfg0.N :=
  Pipeline.withArrays_arr spec0 launch0.win.arr_inj c _ _ 2

/-- A buffer that is no array of the pipeline and is not the reshape's result holds its launch contents: the one line
    before the region writes only the reshape's result. -/
private theorem W0_of_ne (c : Dev nD) (r : Ref sig .tc) (ha : ∀ w, Pipeline.arrRef spec0 w ≠ r) (h0 : r ≠ main_v0) :
    W0 m c (Proc.devRef .tc r) = m ((c.tc : Thread nD τ).loc r) := by
  unfold W0
  rw [Pipeline.withArrays_of_ne _ c (V0 m c) _ r ha]
  show StableHlo.after (hostOps0 (F := Ideal)) (fun b => m (c, b)) (Proc.devRef .tc r) = _
  simp only [hostOps0, StableHlo.after_cons, StableHlo.after_nil]
  rw [StableHlo.reshape_result_ne _ _ _ _ _ _ _ h0]

/-! ## The three stretches, each over any contents it starts from -/

section Stretches

variable (W : Valuation τ sig (Elt Ideal))

/-- The first stretch leaves new_x, the transposed weights, their row means and the integer zero, and writes no argument. -/
private theorem s1_v27 : StableHlo.after (hostOps1 (F := Ideal)) W (Proc.devRef .tc main_v27)
      = newX (F := Ideal) (W (Proc.devRef .tc main_v1_0)) (W (Proc.devRef .tc main_v1_1)) (W (Proc.devRef .tc main_arg3)) (W (Proc.devRef .tc main_arg4)) := by
  simp only [hostOps1]
  open StableHlo in after_results_simp
  unfold newX paramOverBatch overBatch chanInvStd chanVar chanMean pooled
  rfl
private theorem s1_v28 : StableHlo.after (hostOps1 (F := Ideal)) W (Proc.devRef .tc main_v28) = wT (F := Ideal) (W (Proc.devRef .tc main_arg1)) := by
  simp only [hostOps1]
  open StableHlo in after_results_simp
  rfl
private theorem s1_v32 : StableHlo.after (hostOps1 (F := Ideal)) W (Proc.devRef .tc main_v32)
      = rowMean512 (F := Ideal) (wT (F := Ideal) (W (Proc.devRef .tc main_arg1))) := by
  simp only [hostOps1]
  open StableHlo in after_results_simp
  unfold rowMean512 wT
  rfl
private theorem s1_c : StableHlo.after (hostOps1 (F := Ideal)) W (Proc.devRef .tc main_c) = constantI S_ 32 0#32 := by
  simp only [hostOps1]
  open StableHlo in after_results_simp
private theorem s1_keep (r : Ref sig .tc) (hr : r = main_arg2 ∨ r = main_arg5 ∨ r = main_arg6) :
    StableHlo.after (hostOps1 (F := Ideal)) W (Proc.devRef .tc r) = W (Proc.devRef .tc r) := by
  rcases hr with rfl | rfl | rfl <;> (simp only [hostOps1]; open StableHlo in after_results_simp)

/-- The variance routine's stretch leaves the row variances of the transposed weights, and writes nothing the later lines
    read but that. -/
private theorem s2_v33 : StableHlo.after (hostOps1_1 (F := Ideal)) W (Proc.devRef .tc main_v33)
      = rowVar512 (F := Ideal) (W (Proc.devRef .tc main_v28)) (W (Proc.devRef .tc main_c)) := by
  simp only [hostOps1_1]
  open StableHlo in after_results_simp
  simp only [StableHlo.TRef.ofBuf, StableHlo.TRef.toBuf, cast_eq]
  unfold rowVar512 dofCount rowMean512
  rfl
private theorem s2_keep (r : Ref sig .tc)
    (hr : r = main_v27 ∨ r = main_v28 ∨ r = main_v32 ∨ r = main_arg2 ∨ r = main_arg5 ∨ r = main_arg6) :
    StableHlo.after (hostOps1_1 (F := Ideal)) W (Proc.devRef .tc r) = W (Proc.devRef .tc r) := by
  rcases hr with rfl | rfl | rfl | rfl | rfl | rfl <;> (simp only [hostOps1_1]; open StableHlo in after_results_simp)

/-- The logits from what the earlier lines left: new_x, the transposed weights, their row means and row variances. -/
private def logitsFrom (nx : FVec Ideal S1x64x512 .f32) (wt : FVec Ideal S1x16x512 .f32) (mu var : FVec Ideal S1x16x1 .f32)
    (bias : FVec Ideal S1x16 .f32) (lg lb : FVec Ideal S1x512 .f32) : FVec Ideal S1x64x16 .f32 :=
  addf (Host.dotGeneral dot_S1x64x512_S1x512x16_S1x64x16_2_1_1_2_0_0 none nx
      (transpose S1x512x16 [0, 2, 1]
        (addf (mulf (mulf (subf wt (broadcastInDim S1x16x512 ![0, 1, 2] bcast_S1x16x1_S1x16x512_0_1_2 mu))
            (broadcastInDim S1x16x512 ![0, 1, 2] bcast_S1x16x1_S1x16x512_0_1_2
              (Host.rsqrt (addf var (broadcastInDim S1x16x1 ![] bcast_S_S1x16x1 (constant S_ .f32 0x3727C5AC#32))))))
          (paramOverRows lg)) (paramOverRows lb))
        transposes_S1x16x512_S1x512x16_0_2_1))
    (broadcastInDim S1x64x16 ![0, 1, 2] bcast_S1x1x16_S1x64x16_0_1_2 (broadcastInDim S1x1x16 ![0, 2] bcast_S1x16_S1x1x16_0_2 bias))

/-- The logits of the weights are those from the weights' transpose, its row means and its row variances. -/
private theorem logits_eq (nx : FVec Ideal S1x64x512 .f32) (w : FVec Ideal S1x512x16 .f32) (bias : FVec Ideal S1x16 .f32)
    (lg lb : FVec Ideal S1x512 .f32) :
    logits nx w bias lg lb
      = logitsFrom nx (wT w) (rowMean512 (wT w)) (rowVar512 (wT w) (constantI S_ 32 0#32)) bias lg lb := by
  unfold logits wHat logitsFrom
  rfl

/-- The last stretch leaves the logits and their softmax, and does not write new_x. -/
private theorem s3_v51 : StableHlo.after (hostOps1_2 (F := Ideal)) W (Proc.devRef .tc main_v51)
      = logitsFrom (W (Proc.devRef .tc main_v27)) (W (Proc.devRef .tc main_v28)) (W (Proc.devRef .tc main_v32)) (W (Proc.devRef .tc main_v33))
          (W (Proc.devRef .tc main_arg2)) (W (Proc.devRef .tc main_arg5)) (W (Proc.devRef .tc main_arg6)) := by
  simp only [hostOps1_2]
  open StableHlo in after_results_simp
  unfold logitsFrom paramOverRows
  rfl
private theorem s3_v62 : StableHlo.after (hostOps1_2 (F := Ideal)) W (Proc.devRef .tc main_v62)
      = probs (logitsFrom (W (Proc.devRef .tc main_v27)) (W (Proc.devRef .tc main_v28)) (W (Proc.devRef .tc main_v32)) (W (Proc.devRef .tc main_v33))
          (W (Proc.devRef .tc main_arg2)) (W (Proc.devRef .tc main_arg5)) (W (Proc.devRef .tc main_arg6))) := by
  simp only [hostOps1_2]
  open StableHlo in after_results_simp
  unfold probs shiftedExp overAdapters logitsFrom paramOverRows
  rfl
private theorem s3_v27 : StableHlo.after (hostOps1_2 (F := Ideal)) W (Proc.devRef .tc main_v27) = W (Proc.devRef .tc main_v27) := by
  simp only [hostOps1_2]
  open StableHlo in after_results_simp

end Stretches

/-! ## The three results -/

/-- The lines after the region, as the three stretches run one after the other from the contents the region leaves. -/
private theorem tail_split (c : Dev nD) (b : Ref sig .tc) :
    Pipeline.afterTail₀ cfgs (dats m) 0 (V0 m) tailOps c b
      = StableHlo.after (hostOps1_2 (F := Ideal)) (StableHlo.after (hostOps1_1 (F := Ideal)) (StableHlo.after (hostOps1 (F := Ideal)) (W0 m c)))
          (Proc.devRef .tc b) := by
  unfold Pipeline.afterTail₀
  show StableHlo.after (List.flatten (tailOps (F := Ideal))) (W0 m c) (Proc.devRef .tc b) = _
  simp only [tailOps, List.flatten_cons, List.flatten_nil, List.append_nil, StableHlo.after_append]

/-- new_x after the first stretch, from the contents the region leaves. -/
private theorem newX_first (c : Dev nD) :
    StableHlo.after (hostOps1 (F := Ideal)) (W0 m c) (Proc.devRef .tc main_v27) = newXOf m c := by
  rw [s1_v27, W0_s1, W0_s2, W0_of_ne m c main_arg3 (by decide) (by decide), W0_of_ne m c main_arg4 (by decide) (by decide)]

/-- The logits' seven operands after the first two stretches, from the contents the region leaves. -/
private theorem logitsFrom_tail (c : Dev nD) :
    logitsFrom
        (StableHlo.after (hostOps1_1 (F := Ideal)) (StableHlo.after (hostOps1 (F := Ideal)) (W0 m c)) (Proc.devRef .tc main_v27))
        (StableHlo.after (hostOps1_1 (F := Ideal)) (StableHlo.after (hostOps1 (F := Ideal)) (W0 m c)) (Proc.devRef .tc main_v28))
        (StableHlo.after (hostOps1_1 (F := Ideal)) (StableHlo.after (hostOps1 (F := Ideal)) (W0 m c)) (Proc.devRef .tc main_v32))
        (StableHlo.after (hostOps1_1 (F := Ideal)) (StableHlo.after (hostOps1 (F := Ideal)) (W0 m c)) (Proc.devRef .tc main_v33))
        (StableHlo.after (hostOps1_1 (F := Ideal)) (StableHlo.after (hostOps1 (F := Ideal)) (W0 m c)) (Proc.devRef .tc main_arg2))
        (StableHlo.after (hostOps1_1 (F := Ideal)) (StableHlo.after (hostOps1 (F := Ideal)) (W0 m c)) (Proc.devRef .tc main_arg5))
        (StableHlo.after (hostOps1_1 (F := Ideal)) (StableHlo.after (hostOps1 (F := Ideal)) (W0 m c)) (Proc.devRef .tc main_arg6))
      = logitsOf m c := by
  rw [s2_v33, s2_keep _ main_v27 (Or.inl rfl), s2_keep _ main_v28 (Or.inr (Or.inl rfl)), s2_keep _ main_v32 (Or.inr (Or.inr (Or.inl rfl))),
    s2_keep _ main_arg2 (Or.inr (Or.inr (Or.inr (Or.inl rfl)))), s2_keep _ main_arg5 (Or.inr (Or.inr (Or.inr (Or.inr (Or.inl rfl))))),
    s2_keep _ main_arg6 (Or.inr (Or.inr (Or.inr (Or.inr (Or.inr rfl))))),
    newX_first, s1_v28, s1_v32, s1_c, s1_keep _ main_arg2 (Or.inl rfl), s1_keep _ main_arg5 (Or.inr (Or.inl rfl)),
    s1_keep _ main_arg6 (Or.inr (Or.inr rfl)),
    W0_of_ne m c main_arg1 (by decide) (by decide), W0_of_ne m c main_arg2 (by decide) (by decide),
    W0_of_ne m c main_arg5 (by decide) (by decide), W0_of_ne m c main_arg6 (by decide) (by decide)]
  exact (logits_eq _ _ _ _ _).symm

/-- What the lines after the region leave in the three result buffers. -/
theorem tail_v27 (c : Dev nD) : Pipeline.afterTail₀ cfgs (dats m) 0 (V0 m) tailOps c main_v27 = newXOf m c := by
  rw [tail_split, s3_v27, s2_keep _ main_v27 (Or.inl rfl)]
  exact newX_first m c
theorem tail_v51 (c : Dev nD) : Pipeline.afterTail₀ cfgs (dats m) 0 (V0 m) tailOps c main_v51 = logitsOf m c := by
  rw [tail_split, s3_v51]
  exact logitsFrom_tail m c
theorem tail_v62 (c : Dev nD) : Pipeline.afterTail₀ cfgs (dats m) 0 (V0 m) tailOps c main_v62 = probs (logitsOf m c) := by
  rw [tail_split, s3_v62]
  exact congrArg probs (logitsFrom_tail m c)

/-- Each result is an unscoped buffer that is no array of the pipeline. -/
theorem mem_rest_v27 : main_v27 ∈ Pipeline.restRefs sig (cfgs 0).spec :=
  Pipeline.mem_restRefs_of main_v27 (by decide) (by decide)
theorem mem_rest_v51 : main_v51 ∈ Pipeline.restRefs sig (cfgs 0).spec :=
  Pipeline.mem_restRefs_of main_v51 (by decide) (by decide)
theorem mem_rest_v62 : main_v62 ∈ Pipeline.restRefs sig (cfgs 0).spec :=
  Pipeline.mem_restRefs_of main_v62 (by decide) (by decide)

/-- THE RUN WITH VALUES: every weakly fair execution terminates with the results at those terms and the arguments as
    launched. -/
theorem run_values : θ_run defs (onTc (τ := τ) (main (F := Ideal))) ⟨m, fun _ => 0, ρ⟩ (fun r => ∀ c : Dev nD,
      r.2.mem ((c.tc : Thread nD τ).loc main_v27) = newXOf m c
      ∧ r.2.mem ((c.tc : Thread nD τ).loc main_v51) = logitsOf m c
      ∧ r.2.mem ((c.tc : Thread nD τ).loc main_v62) = probs (logitsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v27 mem_rest_v27).trans (tail_v27 m c),
     ((h c).2 main_v51 mem_rest_v51).trans (tail_v51 m c),
     ((h c).2 main_v62 mem_rest_v62).trans (tail_v62 m c),
     ((h c).2 main_arg0 mem_rest_arg0).trans (W_main_arg0 m c),
     ((h c).2 main_arg1 mem_rest_arg1).trans (W_main_arg1 m c),
     ((h c).2 main_arg2 mem_rest_arg2).trans (W_main_arg2 m c),
     ((h c).2 main_arg3 mem_rest_arg3).trans (W_main_arg3 m c),
     ((h c).2 main_arg4 mem_rest_arg4).trans (W_main_arg4 m c),
     ((h c).2 main_arg5 mem_rest_arg5).trans (W_main_arg5 m c),
     ((h c).2 main_arg6 mem_rest_arg6).trans (W_main_arg6 m c)⟩) (run_main m ρ)

end Cert.KernelIdeal.Hand

end
-- ==== Proof.KIValue.lean ====
/-
  What the two output arrays hold when the region has run, at the ideal instance: entry (b, c) of the first is the
  sum over the 1024 positions of plane (b, c) of the reshaped activations, entry (b, c) of the second the sum of
  their squares.  Point t = (i, j) of the 8 × 4 grid writes block rows [8i, 8i+8) × [128j, 128j+128); entry (b, c) is
  written by the one point (b / 8, c / 128), from the input block's row (b % 8, c % 128), which is row (b, c) of the
  array.  The reshaped activations at (b, c, k) are the activations at (b, c, k / 32, k % 32).
-/
import proofs.«151176_j23983097381582_1_alg».proof.Proof.KIFrame
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-- The reshaped activations as the region finds them. -/
abbrev X2 (c : Dev nD) : S64x512x1024.Idx → EReal := V m c main_v0
/-- The two output arrays when the region has run. -/
abbrev sum1 (c : Dev nD) : S64x512.Idx → EReal := (dats m 0 c).arrAt 1 cfg0.N
abbrev sum2 (c : Dev nD) : S64x512.Idx → EReal := (dats m 0 c).arrAt 2 cfg0.N

/-! ## The two reductions as functions of a whole 64 × 512 × 1024 array -/

/-- Entry (b, c): the sum of plane (b, c). -/
private def planeSum (A : S64x512x1024.Idx → EReal) : S64x512.Idx → EReal :=
  fun j => ∑ k : Fin 1024, A (ix3 (n0 := 64) (n1 := 512) (j 0) (j 1) k)
/-- Entry (b, c): the sum of the squares of plane (b, c). -/
private def planeSumSq (A : S64x512x1024.Idx → EReal) : S64x512.Idx → EReal :=
  fun j => ∑ k : Fin 1024, A (ix3 (n0 := 64) (n1 := 512) (j 0) (j 1) k) * A (ix3 (n0 := 64) (n1 := 512) (j 0) (j 1) k)

/-! ## The body's two reductions at an index of the block -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- Over entry (p, q) of the reduced block, the index with k put back on the last axis is (p, q, k). -/
private theorem lift_last (p : Fin 8) (q : Fin 128) (k : Fin 1024) :
    (reduces_S8x128x1024_S8x128).lift (ix2 p q) k = ix3 p q k := by
  funext a
  apply Fin.ext
  match a with
  | ⟨0, _⟩ => rfl
  | ⟨1, _⟩ => rfl
  | ⟨2, _⟩ => rfl

/-- The first stored value at (p, q): the sum of row (p, q) of the loaded block. -/
private theorem pay2_apply (x0 : Vec Ideal S8x128x1024 .f32) (p : Fin 8) (q : Fin 128) :
    k0_pay2 x0 (ix2 p q) = ∑ k : Fin 1024, x0 (ix3 p q k) := by
  unfold k0_pay2 k0_pay1
  refine (Ideal.multiReduction_add_single (shapeCast S8x128x1024 x0 shapeCasts_S8x128x1024_S8x128x1024) 0x00000000#32
    reduces_S8x128x1024_S8x128 (.inl rfl) rfl (ix2 p q)).trans ?_
  show ∑ k : Fin 1024, _ = _
  refine Finset.sum_congr rfl fun k _ => ?_
  rw [shapeCast_self, lift_last]

/-- The second stored value at (p, q): the sum of the squares of row (p, q) of the loaded block. -/
private theorem pay3_apply (x0 : Vec Ideal S8x128x1024 .f32) (p : Fin 8) (q : Fin 128) :
    k0_pay3 x0 (ix2 p q) = ∑ k : Fin 1024, x0 (ix3 p q k) * x0 (ix3 p q k) := by
  unfold k0_pay3 k0_pay1
  refine (Ideal.multiReduction_add_single (mulf (shapeCast S8x128x1024 x0 shapeCasts_S8x128x1024_S8x128x1024)
    (shapeCast S8x128x1024 x0 shapeCasts_S8x128x1024_S8x128x1024)) 0x00000000#32
    reduces_S8x128x1024_S8x128 (.inl rfl) rfl (ix2 p q)).trans ?_
  show ∑ k : Fin 1024, _ = _
  refine Finset.sum_congr rfl fun k _ => ?_
  rw [mulf_apply, shapeCast_self, lift_last]

/-- A block whose row y is row i of an array has, at y, that array's plane sum at i. -/
private theorem pay2_of_rows (x0 : Vec Ideal S8x128x1024 .f32) (A : S64x512x1024.Idx → EReal) (y : S8x128.Idx) (i : S64x512.Idx)
    (h : ∀ k : Fin 1024, x0 (ix3 (n0 := 8) (n1 := 128) (y 0) (y 1) k) = A (ix3 (n0 := 64) (n1 := 512) (i 0) (i 1) k)) :
    k0_pay2 x0 y = planeSum A i := by
  obtain ⟨p, q, rfl⟩ : ∃ (p : Fin 8) (q : Fin 128), y = ix2 p q := ⟨y 0, y 1, eq_ix2 y⟩
  rw [pay2_apply]
  exact Finset.sum_congr rfl fun k _ => h k

private theorem pay3_of_rows (x0 : Vec Ideal S8x128x1024 .f32) (A : S64x512x1024.Idx → EReal) (y : S8x128.Idx) (i : S64x512.Idx)
    (h : ∀ k : Fin 1024, x0 (ix3 (n0 := 8) (n1 := 128) (y 0) (y 1) k) = A (ix3 (n0 := 64) (n1 := 512) (i 0) (i 1) k)) :
    k0_pay3 x0 y = planeSumSq A i := by
  obtain ⟨p, q, rfl⟩ : ∃ (p : Fin 8) (q : Fin 128), y = ix2 p q := ⟨y 0, y 1, eq_ix2 y⟩
  rw [pay3_apply]
  exact Finset.sum_congr rfl fun k _ => by rw [h k]

/-! ## From blocks to the arrays -/

/-- The windows' index maps, decided over the grid: the three windows move together on the two kept axes, and the
    input window stays at block 0 on the reduced axis. -/
private theorem index_facts : ∀ t : Fin cfg0.N,
    win0_0.index t (0 : Fin 3) = win0_1.index t (0 : Fin 2)
    ∧ win0_0.index t (1 : Fin 3) = win0_1.index t (1 : Fin 2)
    ∧ win0_0.index t (2 : Fin 3) = 0
    ∧ win0_2.index t (0 : Fin 2) = win0_1.index t (0 : Fin 2)
    ∧ win0_2.index t (1 : Fin 2) = win0_1.index t (1 : Fin 2) :=
  (by decide +kernel : ∀ t : Fin grid0.N, _)

/-- Every block of the 8 × 4 tiling of the output arrays is some point's. -/
private theorem index_onto : ∀ (q0 : Fin 8) (q1 : Fin 4), ∃ t : Fin cfg0.N,
    win0_1.index t = ![q0.val, q1.val] ∧ win0_2.index t = ![q0.val, q1.val] :=
  (by decide +kernel : ∀ (q0 : Fin 8) (q1 : Fin 4), ∃ t : Fin grid0.N,
    win0_1.index t = ![q0.val, q1.val] ∧ win0_2.index t = ![q0.val, q1.val])

/-- Row y of the input block at point t is the row of the reshaped activations that the first output window's block
    at t names at y. -/
private theorem iblk_row1 (c : Dev nD) (t : Fin cfg0.N) (y : ((cfg0.win 1).xblock (grid0.coords t)).Idx) (k : Fin 1024) :
    (iblk m c 0 t : Vec Ideal S8x128x1024 .f32) (ix3 (n0 := 8) (n1 := 128) (y 0) (y 1) k)
      = X2 m c (ix3 (n0 := 64) (n1 := 512) ((((cfg0.win 1).blk t).view.emb y) 0) ((((cfg0.win 1).blk t).view.emb y) 1) k) := by
  obtain ⟨e0, e1, e2, e3, e4⟩ := index_facts t
  show V m c main_v0 (((cfg0.win 0).blk t).view.emb _) = V m c main_v0 _
  refine congrArg (V m c main_v0) (funext fun a => Fin.ext ?_)
  match a with
  | ⟨0, _⟩ => show win0_0.index t (0 : Fin 3) * 8 + 1 * (y 0).val = win0_1.index t (0 : Fin 2) * 8 + 1 * (y 0).val; omega
  | ⟨1, _⟩ => show win0_0.index t (1 : Fin 3) * 128 + 1 * (y 1).val = win0_1.index t (1 : Fin 2) * 128 + 1 * (y 1).val; omega
  | ⟨2, _⟩ => show win0_0.index t (2 : Fin 3) * 1024 + 1 * k.val = k.val; omega

/-- The same against the second output window's block. -/
private theorem iblk_row2 (c : Dev nD) (t : Fin cfg0.N) (y : ((cfg0.win 2).xblock (grid0.coords t)).Idx) (k : Fin 1024) :
    (iblk m c 0 t : Vec Ideal S8x128x1024 .f32) (ix3 (n0 := 8) (n1 := 128) (y 0) (y 1) k)
      = X2 m c (ix3 (n0 := 64) (n1 := 512) ((((cfg0.win 2).blk t).view.emb y) 0) ((((cfg0.win 2).blk t).view.emb y) 1) k) := by
  obtain ⟨e0, e1, e2, e3, e4⟩ := index_facts t
  show V m c main_v0 (((cfg0.win 0).blk t).view.emb _) = V m c main_v0 _
  refine congrArg (V m c main_v0) (funext fun a => Fin.ext ?_)
  match a with
  | ⟨0, _⟩ => show win0_0.index t (0 : Fin 3) * 8 + 1 * (y 0).val = win0_2.index t (0 : Fin 2) * 8 + 1 * (y 0).val; omega
  | ⟨1, _⟩ => show win0_0.index t (1 : Fin 3) * 128 + 1 * (y 1).val = win0_2.index t (1 : Fin 2) * 128 + 1 * (y 1).val; omega
  | ⟨2, _⟩ => show win0_0.index t (2 : Fin 3) * 1024 + 1 * k.val = k.val; omega

/-- What point t writes back to the first output array is block t of the plane sums of the reshaped activations. -/
private theorem flushed1_eq (c : Dev nD) (t : Fin cfg0.N) :
    (dats m 0 c).flushed 1 t = ((cfg0.win 1).blk t).view.read (Elt Ideal) (planeSum (X2 m c)) := by
  show (cfg0.win 1).cut (grid0.coords t) ((dats m 0 c).after 1 t) = _
  rw [after0_1]
  unfold out0_1
  rw [View.canon_unit_zero zeros2]
  simp only [View.ld_unit_zero (S := S8x128x1024) zeros3]
  funext y
  exact pay2_of_rows (iblk m c 0 t) (X2 m c) y (((cfg0.win 1).blk t).view.emb y) (fun k => iblk_row1 m c t y k)

/-- What point t writes back to the second output array is block t of the plane sums of squares. -/
private theorem flushed2_eq (c : Dev nD) (t : Fin cfg0.N) :
    (dats m 0 c).flushed 2 t = ((cfg0.win 2).blk t).view.read (Elt Ideal) (planeSumSq (X2 m c)) := by
  show (cfg0.win 2).cut (grid0.coords t) ((dats m 0 c).after 2 t) = _
  rw [after0_2]
  unfold out0_2
  rw [View.canon_unit_zero zeros2]
  simp only [View.ld_unit_zero (S := S8x128x1024) zeros3]
  funext y
  exact pay3_of_rows (iblk m c 0 t) (X2 m c) y (((cfg0.win 2).blk t).view.emb y) (fun k => iblk_row2 m c t y k)

/-- An index of the first output array is in point t's block iff each coordinate is in the block's range. -/
private theorem mem_blk1 (t : Fin cfg0.N) (i : S64x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1_0).slice (win0_1.rect t)).set ↔ _
  rw [View.set_slice_whole, Rect.mem_set_unit]
  exact Iff.rfl

private theorem mem_blk2 (t : Fin cfg0.N) (i : S64x512.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1_1).slice (win0_2.rect t)).set ↔ _
  rw [View.set_slice_whole, Rect.mem_set_unit]
  exact Iff.rfl

/-- Entry (b, ch) lies in the block of the point whose block indices are (b / 8, ch / 128). -/
private theorem cover1 (i : S64x512.Idx) : ∃ t : Fin cfg0.N, (cfg0.win 1).flush t = true ∧ i ∈ ((cfg0.win 1).blk t).view.set := by
  have hi0 : (i 0).val < 64 := (i 0).isLt
  have hi1 : (i 1).val < 512 := (i 1).isLt
  obtain ⟨t, ht, -⟩ := index_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

private theorem cover2 (i : S64x512.Idx) : ∃ t : Fin cfg0.N, (cfg0.win 2).flush t = true ∧ i ∈ ((cfg0.win 2).blk t).view.set := by
  have hi0 : (i 0).val < 64 := (i 0).isLt
  have hi1 : (i 1).val < 512 := (i 1).isLt
  obtain ⟨t, -, ht⟩ := index_onto ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The first output array when the region has run: the plane sums of the reshaped activations. -/
private theorem sum1_eq (c : Dev nD) : sum1 m c = planeSum (X2 m c) :=
  (dats m 0 c).arrAt_eq_of_cover 1 (planeSum (X2 m c)) (fun t _ => flushed1_eq m c t) cover1

/-- The second output array when the region has run: the plane sums of squares. -/
private theorem sum2_eq (c : Dev nD) : sum2 m c = planeSumSq (X2 m c) :=
  (dats m 0 c).arrAt_eq_of_cover 2 (planeSumSq (X2 m c)) (fun t _ => flushed2_eq m c t) cover2

/-- Entry (b, ch) of the first output array is the sum of plane (b, ch). -/
theorem sum1_apply (c : Dev nD) (b : Fin 64) (ch : Fin 512) :
    sum1 m c (ix2 b ch) = ∑ k : Fin 1024, X2 m c (ix3 b ch k) := by
  rw [sum1_eq]; rfl

/-- Entry (b, ch) of the second output array is the sum of the squares of plane (b, ch). -/
theorem sum2_apply (c : Dev nD) (b : Fin 64) (ch : Fin 512) :
    sum2 m c (ix2 b ch) = ∑ k : Fin 1024, X2 m c (ix3 b ch k) * X2 m c (ix3 b ch k) := by
  rw [sum2_eq]; rfl

/-! ## The reshape before the region -/

/-- The reshaped activations are the one reshape of the launch contents. -/
private theorem X2_eq (c : Dev nD) :
    X2 m c = shapeCast S64x512x1024 (m ((c.tc : Thread nD τ).loc main_arg0) : S64x512x32x32.Idx → EReal)
      shapeCasts_S64x512x32x32_S64x512x1024 := by
  show StableHlo.after hostOps0 (fun b => m (c, b)) (Proc.devRef .tc main_v0) = _
  after_results
  rfl

/-- The reshaped activations at (b, ch, k) are the activations at (b, ch, k / 32, k % 32). -/
theorem X2_apply (c : Dev nD) (b : Fin 64) (ch : Fin 512) (k : Fin 1024) :
    X2 m c (ix3 b ch k)
      = (m ((c.tc : Thread nD τ).loc main_arg0) : S64x512x32x32.Idx → EReal)
          (ix4 b ch (⟨k.val / 32, by have := k.isLt; omega⟩ : Fin 32) (⟨k.val % 32, Nat.mod_lt _ (by norm_num)⟩ : Fin 32)) := by
  rw [X2_eq]
  refine shapeCast_apply (s := S64x512x32x32) (t := S64x512x1024) _ _ _ _ ?_
  show (S64x512x32x32.rowMajor _).val = (S64x512x1024.rowMajor _).val
  rw [Shape.rowMajor_val_three, Shape.rowMajor_val_four]
  show ((b.val * 512 + ch.val) * 32 + k.val / 32) * 32 + k.val % 32 = (b.val * 512 + ch.val) * 1024 + k.val
  omega

end Cert.KernelIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
/-
  The mathematics of the normalized, pooled activations `new_x[b, c]`, free of either program.

  Write `x[b, c, h, w]` for the activations (64 × 512 × 32 × 32), `γ[c]`, `β[c]` for the affine
  parameters, `ε` for the stabilizer.  One side works from per-(b, c) spatial sums:
    s₁[b, c] = Σ_{h,w} x,   s₂[b, c] = Σ_{h,w} x²,
    μ[c] = (Σ_b s₁[b, c]) / 65536,   σ²[c] = (Σ_b s₂[b, c]) / 65536 − μ[c]²,
    new_x[b, c] = γ[c] · ((s₁[b, c] / 1024 − μ[c]) · rsqrt(σ²[c] + ε)) + β[c].
  The other normalizes every element and then pools:
    μ'[c] = (Σ_{b,h,w} x) / 65536,   σ'²[c] = (Σ_{b,h,w} (x − μ'[c])²) / 65536,
    new_x'[b, c] = (Σ_{h,w} (((x − μ'[c]) · rsqrt(σ'²[c] + ε)) · γ[c] + β[c])) / 1024.
  On real (finite) entries the two agree: E[(x − μ)²] = E[x²] − μ², and the affine map commutes
  with the spatial mean.  The operations below are the ideal instance's own (`Ideal.div`,
  `Ideal.rsqrt`, `+`, `−`, `·` of `EReal`), so the identity needs every entry to be a real number.
-/
import Idealize.ShloMosaic.PureOps.Ideal
import proofs.«151176_j23983097381582_1_alg».proof.Proof.LibReal
import Mathlib.Algebra.BigOperators.Fin
import Mathlib.Algebra.Order.BigOperators.Ring.Finset
import Mathlib.Tactic.Ring
import Mathlib.Tactic.FieldSimp
import Mathlib.Tactic.NormNum
import Mathlib.Tactic.Linarith

open scoped BigOperators

noncomputable section

namespace Cert.Spec

open Idealize.ShloMosaic Cert.LibReal

/-- The stabilizer ε (the f32 nearest 1e-5), the element count 65536 = 64·32·32 of a channel, and the
    element count 1024 = 32·32 of one image plane, each as the f32 pattern the programs carry. -/
abbrev eps : EReal := Ideal.ofBits .f32 0x3727C5AC#32
abbrev nChan : EReal := Ideal.ofBits .f32 0x47800000#32
abbrev nPlane : EReal := Ideal.ofBits .f32 0x44800000#32

/-- The spatial position `k ∈ [0, 1024)` of a flattened plane as row `k / 32` and column `k % 32`. -/
def row (k : Fin 1024) : Fin 32 := ⟨k.val / 32, by have := k.isLt; omega⟩
def col (k : Fin 1024) : Fin 32 := ⟨k.val % 32, Nat.mod_lt _ (by norm_num)⟩

/-! ### The three literals as real numbers -/

/-- The pattern `0x47800000` is 2¹⁶ = 65536. -/
private theorem nChan_eq : nChan = ((65536 : ℝ) : EReal) := by
  simp [Ideal.ofBits, Ideal.ieee, -EReal.coe_mul]; norm_num

/-- The pattern `0x44800000` is 2¹⁰ = 1024. -/
private theorem nPlane_eq : nPlane = ((1024 : ℝ) : EReal) := by
  simp [Ideal.ofBits, Ideal.ieee, -EReal.coe_mul]; norm_num

/-- The stabilizer is a positive real, (2²³ + 2606508) · 2⁻⁴⁰. -/
private theorem eps_eq : ∃ r : ℝ, 0 < r ∧ eps = (r : EReal) := by
  refine ⟨(10995116 : ℝ) * (2 : ℝ) ^ (-40 : ℤ), by positivity, ?_⟩
  simp [Ideal.ofBits, Ideal.ieee, -EReal.coe_mul]

/-- The reciprocal square root of a positive real is the real one. -/
private theorem rsqrt_of_pos {r : ℝ} (h : 0 < r) : Ideal.rsqrt (r : EReal) = (((Real.sqrt r)⁻¹ : ℝ) : EReal) := by
  rw [Ideal.rsqrt_coe, if_neg (not_lt.mpr h.le), if_neg h.ne']

/-! ### A flattened plane -/

/-- Position `k` of a flattened plane is (row, column) = (k / 32, k % 32), a bijection. -/
private def flatEquiv : Fin 1024 ≃ Fin 32 × Fin 32 where
  toFun k := (row k, col k)
  invFun p := ⟨32 * p.1.val + p.2.val, by have := p.1.isLt; have := p.2.isLt; omega⟩
  left_inv k := by
    apply Fin.ext
    simp only [row, col]
    omega
  right_inv p := by
    have h1 := p.1.isLt
    have h2 := p.2.isLt
    apply Prod.ext
    · apply Fin.ext
      simp only [row]
      omega
    · apply Fin.ext
      simp only [col]
      omega

/-- The sum over the flattened positions is the sum over rows and columns. -/
private theorem sum_flat {M : Type} [AddCommMonoid M] (f : Fin 32 → Fin 32 → M) :
    ∑ k : Fin 1024, f (row k) (col k) = ∑ h : Fin 32, ∑ w : Fin 32, f h w := by
  rw [← Fintype.sum_prod_type']
  exact Fintype.sum_equiv flatEquiv _ _ (fun _ => rfl)

/-! ### The real identities, over any finite index type -/

section Real
variable {ι : Type} [Fintype ι]

/-- E[(a − μ)²] = E[a²] − μ² with μ = E[a], the mean over `N = |ι|` entries written as a
    product with 1/N. -/
private theorem var_identity (a : ι → ℝ) (N : ℝ) (hN : (Fintype.card ι : ℝ) = N) (hN0 : N ≠ 0) :
    (∑ i, (a i - (∑ j, a j) * (1 / N)) * (a i - (∑ j, a j) * (1 / N))) * (1 / N)
      = (∑ i, a i * a i) * (1 / N) - ((∑ j, a j) * (1 / N)) * ((∑ j, a j) * (1 / N)) := by
  set S : ℝ := ∑ j, a j with hS
  set m : ℝ := S * (1 / N) with hm
  have h1 : ∑ i, (a i - m) * (a i - m) = (∑ i, a i * a i) - 2 * m * S + N * (m * m) := by
    have : ∀ i, (a i - m) * (a i - m) = a i * a i - 2 * m * a i + m * m := fun i => by ring
    simp only [this]
    rw [Finset.sum_add_distrib, Finset.sum_sub_distrib, ← Finset.mul_sum, Finset.sum_const,
      Finset.card_univ, nsmul_eq_mul, hN]
  rw [h1, hm]
  field_simp
  ring

/-- A mean of squares is not negative. -/
private theorem mean_sq_nonneg (a : ι → ℝ) (m N : ℝ) (hN : 0 < N) :
    0 ≤ (∑ i, (a i - m) * (a i - m)) * (1 / N) :=
  mul_nonneg (Finset.sum_nonneg fun _ _ => mul_self_nonneg _) (by positivity)

/-- The affine map commutes with the mean: the mean of `((a − μ)·r)·g + β` over `n = |ι|`
    entries is `g·((mean a − μ)·r) + β`. -/
private theorem pool_identity (a : ι → ℝ) (m r g β n : ℝ) (hn : (Fintype.card ι : ℝ) = n) (hn0 : n ≠ 0) :
    (∑ i, ((a i - m) * r * g + β)) * (1 / n) = g * (((∑ i, a i) * (1 / n) - m) * r) + β := by
  rw [Finset.sum_add_distrib, ← Finset.sum_mul, ← Finset.sum_mul, Finset.sum_sub_distrib,
    Finset.sum_const, Finset.sum_const, Finset.card_univ, nsmul_eq_mul, nsmul_eq_mul, hn]
  field_simp

end Real

variable (x : Fin 64 → Fin 512 → Fin 32 → Fin 32 → EReal) (γ β : Fin 512 → EReal)

/-- s₁[b, c]: the sum of a plane, over its flattened positions. -/
def planeSum (b : Fin 64) (c : Fin 512) : EReal := ∑ k : Fin 1024, x b c (row k) (col k)
/-- s₂[b, c]: the sum of the squares of a plane. -/
def planeSumSq (b : Fin 64) (c : Fin 512) : EReal := ∑ k : Fin 1024, x b c (row k) (col k) * x b c (row k) (col k)

/-- μ[c] from plane sums `s₁`. -/
def meanOfSums (s1 : Fin 64 → Fin 512 → EReal) (c : Fin 512) : EReal := Ideal.div (∑ b : Fin 64, s1 b c) nChan
/-- σ²[c] as mean of squares minus squared mean, from plane sums `s₁`, `s₂`. -/
def varOfSums (s1 s2 : Fin 64 → Fin 512 → EReal) (c : Fin 512) : EReal :=
  Ideal.div (∑ b : Fin 64, s2 b c) nChan - meanOfSums s1 c * meanOfSums s1 c
/-- new_x[b, c] from plane sums `s₁`, `s₂`. -/
def pooledNorm (s1 s2 : Fin 64 → Fin 512 → EReal) (γ β : Fin 512 → EReal) (b : Fin 64) (c : Fin 512) : EReal :=
  γ c * ((Ideal.div (s1 b c) nPlane - meanOfSums s1 c) * Ideal.rsqrt (varOfSums s1 s2 c + eps)) + β c

/-- μ'[c]: the mean over batch and plane. -/
def meanAll (c : Fin 512) : EReal := Ideal.div (∑ b : Fin 64, ∑ h : Fin 32, ∑ w : Fin 32, x b c h w) nChan
/-- σ'²[c]: the mean squared distance to μ'[c]. -/
def varAll (c : Fin 512) : EReal :=
  Ideal.div (∑ b : Fin 64, ∑ h : Fin 32, ∑ w : Fin 32, (x b c h w - meanAll x c) * (x b c h w - meanAll x c)) nChan
/-- new_x'[b, c]: normalize every element, apply the affine map, then average the plane. -/
def normPooled (b : Fin 64) (c : Fin 512) : EReal :=
  Ideal.div (∑ h : Fin 32, ∑ w : Fin 32,
    (((x b c h w - meanAll x c) * Ideal.rsqrt (varAll x c + eps)) * γ c + β c)) nPlane

/-! ### Each quantity of the two formulas, on real entries, as the coercion of a real number -/

section Coe
variable (xr : Fin 64 → Fin 512 → Fin 32 → Fin 32 → ℝ) (c : Fin 512)

private theorem planeSum_coe (b : Fin 64) :
    planeSum (fun b c h w => ((xr b c h w : ℝ) : EReal)) b c
      = ((∑ h, ∑ w, xr b c h w : ℝ) : EReal) := by
  refine (sum_flat (M := EReal) (fun h w => ((xr b c h w : ℝ) : EReal))).trans ?_
  simp only [coe_sum]

private theorem planeSumSq_coe (b : Fin 64) :
    planeSumSq (fun b c h w => ((xr b c h w : ℝ) : EReal)) b c
      = ((∑ h, ∑ w, xr b c h w * xr b c h w : ℝ) : EReal) := by
  refine (sum_flat (M := EReal)
    (fun h w => ((xr b c h w : ℝ) : EReal) * ((xr b c h w : ℝ) : EReal))).trans ?_
  simp only [coe_sum, EReal.coe_mul]

private theorem meanOfSums_coe :
    meanOfSums (planeSum (fun b c h w => ((xr b c h w : ℝ) : EReal))) c
      = (((∑ b, ∑ h, ∑ w, xr b c h w) * (1 / 65536) : ℝ) : EReal) := by
  unfold meanOfSums
  rw [nChan_eq, Ideal.div_coe (by norm_num)]
  simp only [planeSum_coe, ← coe_sum, ← EReal.coe_mul]

private theorem meanAll_coe :
    meanAll (fun b c h w => ((xr b c h w : ℝ) : EReal)) c
      = (((∑ b, ∑ h, ∑ w, xr b c h w) * (1 / 65536) : ℝ) : EReal) := by
  unfold meanAll
  rw [nChan_eq, Ideal.div_coe (by norm_num)]
  simp only [← coe_sum, ← EReal.coe_mul]

private theorem varOfSums_coe :
    varOfSums (planeSum (fun b c h w => ((xr b c h w : ℝ) : EReal)))
        (planeSumSq (fun b c h w => ((xr b c h w : ℝ) : EReal))) c
      = (((∑ b, ∑ h, ∑ w, xr b c h w * xr b c h w) * (1 / 65536)
          - ((∑ b, ∑ h, ∑ w, xr b c h w) * (1 / 65536)) * ((∑ b, ∑ h, ∑ w, xr b c h w) * (1 / 65536)) : ℝ) : EReal) := by
  unfold varOfSums
  rw [meanOfSums_coe, nChan_eq, Ideal.div_coe (by norm_num)]
  simp only [planeSumSq_coe, ← coe_sum, ← EReal.coe_mul, ← EReal.coe_sub]

private theorem varAll_coe :
    varAll (fun b c h w => ((xr b c h w : ℝ) : EReal)) c
      = (((∑ b, ∑ h, ∑ w, (xr b c h w - (∑ b, ∑ h, ∑ w, xr b c h w) * (1 / 65536))
            * (xr b c h w - (∑ b, ∑ h, ∑ w, xr b c h w) * (1 / 65536))) * (1 / 65536) : ℝ) : EReal) := by
  unfold varAll
  rw [meanAll_coe, nChan_eq, Ideal.div_coe (by norm_num)]
  simp only [← EReal.coe_sub, ← EReal.coe_mul, ← coe_sum]

/-- The two variances agree: the sums over batch, row and column are one sum over the 65536
    triples. -/
private theorem var_eq :
    (∑ b, ∑ h, ∑ w, (xr b c h w - (∑ b, ∑ h, ∑ w, xr b c h w) * (1 / 65536))
        * (xr b c h w - (∑ b, ∑ h, ∑ w, xr b c h w) * (1 / 65536))) * (1 / 65536)
      = (∑ b, ∑ h, ∑ w, xr b c h w * xr b c h w) * (1 / 65536)
          - ((∑ b, ∑ h, ∑ w, xr b c h w) * (1 / 65536)) * ((∑ b, ∑ h, ∑ w, xr b c h w) * (1 / 65536)) := by
  have h := var_identity (ι := Fin 64 × Fin 32 × Fin 32) (fun p => xr p.1 c p.2.1 p.2.2) 65536
    (by simp only [Fintype.card_prod, Fintype.card_fin]; norm_num) (by norm_num)
  simpa only [Fintype.sum_prod_type] using h

/-- The variance is not negative. -/
private theorem var_nonneg :
    0 ≤ (∑ b, ∑ h, ∑ w, (xr b c h w - (∑ b, ∑ h, ∑ w, xr b c h w) * (1 / 65536))
        * (xr b c h w - (∑ b, ∑ h, ∑ w, xr b c h w) * (1 / 65536))) * (1 / 65536) := by
  have h := mean_sq_nonneg (ι := Fin 64 × Fin 32 × Fin 32) (fun p => xr p.1 c p.2.1 p.2.2)
    ((∑ b, ∑ h, ∑ w, xr b c h w) * (1 / 65536)) 65536 (by norm_num)
  simpa only [Fintype.sum_prod_type] using h

end Coe

/-- The identity on entries given as real numbers. -/
private theorem pooledNorm_eq_normPooled_coe (xr : Fin 64 → Fin 512 → Fin 32 → Fin 32 → ℝ)
    (gr br : Fin 512 → ℝ) (b : Fin 64) (c : Fin 512) :
    pooledNorm (planeSum (fun b c h w => ((xr b c h w : ℝ) : EReal)))
        (planeSumSq (fun b c h w => ((xr b c h w : ℝ) : EReal)))
        (fun c => ((gr c : ℝ) : EReal)) (fun c => ((br c : ℝ) : EReal)) b c
      = normPooled (fun b c h w => ((xr b c h w : ℝ) : EReal))
        (fun c => ((gr c : ℝ) : EReal)) (fun c => ((br c : ℝ) : EReal)) b c := by
  obtain ⟨e, he, hee⟩ := eps_eq
  have hpos : 0 < (∑ b, ∑ h, ∑ w, xr b c h w * xr b c h w) * (1 / 65536)
      - ((∑ b, ∑ h, ∑ w, xr b c h w) * (1 / 65536)) * ((∑ b, ∑ h, ∑ w, xr b c h w) * (1 / 65536)) + e := by
    have := var_nonneg xr c
    rw [var_eq] at this
    linarith
  unfold pooledNorm normPooled
  rw [meanOfSums_coe, varOfSums_coe, meanAll_coe, varAll_coe, var_eq, hee, ← EReal.coe_add,
    rsqrt_of_pos hpos, planeSum_coe, nPlane_eq, Ideal.div_coe (by norm_num),
    Ideal.div_coe (by norm_num)]
  simp only [← EReal.coe_sub, ← EReal.coe_mul, ← EReal.coe_add, ← coe_sum]
  congr 1
  have h := pool_identity (ι := Fin 32 × Fin 32) (fun p => xr b c p.1 p.2)
    ((∑ b, ∑ h, ∑ w, xr b c h w) * (1 / 65536))
    (Real.sqrt ((∑ b, ∑ h, ∑ w, xr b c h w * xr b c h w) * (1 / 65536)
      - ((∑ b, ∑ h, ∑ w, xr b c h w) * (1 / 65536)) * ((∑ b, ∑ h, ∑ w, xr b c h w) * (1 / 65536)) + e))⁻¹
    (gr c) (br c) 1024 (by simp only [Fintype.card_prod, Fintype.card_fin]; norm_num) (by norm_num)
  simp only [Fintype.sum_prod_type] at h
  exact h.symm

/-- THE IDENTITY: on real entries the two orders of computation give the same `new_x[b, c]`. -/
theorem pooledNorm_eq_normPooled (hx : ∀ b c h w, IsReal (x b c h w)) (hγ : ∀ c, IsReal (γ c)) (hβ : ∀ c, IsReal (β c))
    (b : Fin 64) (c : Fin 512) : pooledNorm (planeSum x) (planeSumSq x) γ β b c = normPooled x γ β b c := by
  choose xr hxr using hx
  choose gr hgr using hγ
  choose br hbr using hβ
  obtain rfl : x = fun b c h w => ((xr b c h w : ℝ) : EReal) := by
    funext b c h w; exact hxr b c h w
  obtain rfl : γ = fun c => ((gr c : ℝ) : EReal) := funext hgr
  obtain rfl : β = fun c => ((br c : ℝ) : EReal) := funext hbr
  exact pooledNorm_eq_normPooled_coe xr gr br b c

end Cert.Spec

end
-- ==== Proof.KINewX.lean ====
/-
  The kernel program's new_x read at an entry, at the ideal instance: entry (0, b, c) of
  γ · ((s₁/1024 − μ) · rsqrt(σ² + ε)) + β with μ = (Σ_b s₁)/65536 and σ² = (Σ_b s₂)/65536 − μ² is the
  specification's formula of the plane sums at (b, c): the broadcasts read their operand at the coordinates they
  keep, the sums over the batch axis are sums over its 64 coordinates from the initial value zero, and the
  elementwise operations act entry by entry.
-/
import proofs.«151176_j23983097381582_1_alg».proof.Proof.KIHost
import proofs.«151176_j23983097381582_1_alg».proof.Proof.Spec
import Idealize.ShloMosaic.PureOps.Ideal.Laws
import Idealize.ShloMosaic.Lib.ValueIdx
import Idealize.ShloMosaic.Lib.IdealHost
import Idealize.ShloMosaic.Lib.Pipeline.Value

open scoped BigOperators

noncomputable section

namespace Cert.KernelIdeal.Hand

open Idealize.ShloMosaic Idealize.ShloMosaic.ValueIdx Cert.KernelIdeal Cert.KernelIdeal.Gen

/-! ## The broadcasts, read at an entry -/

/-- A per-channel vector laid along every batch row reads, at (0, b, c), the vector at c: the first broadcast puts
    the channel on the last of three axes, the second repeats the unit middle axis 64 times. -/
private theorem overBatch_apply (v : FVec Ideal S512 .f32) (b : Fin 64) (ch : Fin 512) :
    overBatch v (ix3 (0 : Fin 1) b ch) = v (ix1 ch) := by
  unfold overBatch
  rw [broadcastInDim_apply _ _ _ (ix3 (0 : Fin 1) b ch) (ix3 (0 : Fin 1) (0 : Fin 1) ch)
      (fun a => by match a with | ⟨0, _⟩ => rfl | ⟨1, _⟩ => rfl | ⟨2, _⟩ => rfl),
    broadcastInDim_apply _ _ _ (ix3 (0 : Fin 1) (0 : Fin 1) ch) (ix1 ch)
      (fun a => by match a with | ⟨0, _⟩ => rfl)]

/-- A 1 × 512 parameter row laid along every batch row reads, at (0, b, c), the row at (0, c). -/
private theorem paramOverBatch_apply (v : FVec Ideal S1x512 .f32) (b : Fin 64) (ch : Fin 512) :
    paramOverBatch v (ix3 (0 : Fin 1) b ch) = v (ix2 (0 : Fin 1) ch) := by
  unfold paramOverBatch
  rw [broadcastInDim_apply _ _ _ (ix3 (0 : Fin 1) b ch) (ix3 (0 : Fin 1) (0 : Fin 1) ch)
      (fun a => by match a with | ⟨0, _⟩ => rfl | ⟨1, _⟩ => rfl | ⟨2, _⟩ => rfl),
    broadcastInDim_apply _ _ _ (ix3 (0 : Fin 1) (0 : Fin 1) ch) (ix2 (0 : Fin 1) ch)
      (fun a => by match a with | ⟨0, _⟩ => rfl | ⟨1, _⟩ => rfl)]

/-- A 64 × 512 array given a leading unit axis reads, at (0, b, c), the array at (b, c). -/
private theorem underUnit_apply (x : FVec Ideal S64x512 .f32) (b : Fin 64) (ch : Fin 512) :
    broadcastInDim S1x64x512 ![1, 2] bcast_S64x512_S1x64x512_1_2 x (ix3 (0 : Fin 1) b ch) = x (ix2 b ch) :=
  broadcastInDim_apply _ _ _ _ _ (fun a => by match a with | ⟨0, _⟩ => rfl | ⟨1, _⟩ => rfl)

/-! ## The per-channel statistics, read at a channel -/

/-- The batch sum divided by 65536, at channel c: the host's sum over axis 0 starts from the zero pattern, which
    is the extended real 0, and runs over the 64 batch coordinates. -/
private theorem chanMean_apply (s : FVec Ideal S64x512 .f32) (ch : Fin 512) :
    chanMean s (ix1 ch) = Ideal.div (∑ b : Fin 64, s (ix2 b ch)) (Ideal.ofBits .f32 0x47800000#32) := by
  unfold chanMean
  rw [hostDivf_apply, hostReduceAdd_apply, broadcastInDim_scalar_apply, constant_apply, constant_apply,
    Ideal.hostReduceAdd_single reducesTo_S64x512_S512_d0 (by decide : S64x512.Reduces [0] S512),
    Ideal.ofBits_zero_f32, zero_add]
  refine congrArg (fun t => Ideal.div t _) ?_
  show ∑ k : Fin 64, s _ = _
  exact Finset.sum_congr rfl fun k _ => congrArg s
    (funext fun a => Fin.ext (by match a with | ⟨0, _⟩ => rfl | ⟨1, _⟩ => rfl))

/-- σ² at channel c. -/
private theorem chanVar_apply (s1 s2 : FVec Ideal S64x512 .f32) (ch : Fin 512) :
    chanVar s1 s2 (ix1 ch) = chanMean s2 (ix1 ch) - chanMean s1 (ix1 ch) * chanMean s1 (ix1 ch) := rfl

/-- The host's reciprocal square root at an index is the ideal instance's of the element. -/
private theorem hostRsqrt_apply {s : Shape} {φ : FTy} (x : FVec Ideal s φ) (i : s.Idx) :
    Host.rsqrt x i = Ideal.rsqrt (x i) := rfl

/-- rsqrt(σ² + ε) at channel c: the host's rsqrt is the ideal instance's, the stabilizer a scalar read everywhere. -/
private theorem chanInvStd_apply (s1 s2 : FVec Ideal S64x512 .f32) (ch : Fin 512) :
    chanInvStd s1 s2 (ix1 ch) = Ideal.rsqrt (chanVar s1 s2 (ix1 ch) + Ideal.ofBits .f32 0x3727C5AC#32) := by
  unfold chanInvStd
  rw [hostRsqrt_apply, addf_apply, broadcastInDim_scalar_apply, constant_apply]

/-- s₁/1024 at (b, c). -/
private theorem pooled_apply (s1 : FVec Ideal S64x512 .f32) (b : Fin 64) (ch : Fin 512) :
    pooled s1 (ix2 b ch) = Ideal.div (s1 (ix2 b ch)) (Ideal.ofBits .f32 0x44800000#32) := by
  unfold pooled
  rw [hostDivf_apply, broadcastInDim_scalar_apply, constant_apply]

/-! ## new_x at an entry -/

/-- new_x at entry (0, b, c) is the specification's formula of the plane sums. -/
theorem newX_apply (s1 s2 : FVec Ideal S64x512 .f32) (g be : FVec Ideal S1x512 .f32) (b : Fin 64) (ch : Fin 512) :
    newX s1 s2 g be (ix3 (0 : Fin 1) b ch)
      = Cert.Spec.pooledNorm (fun b c => s1 (ix2 b c)) (fun b c => s2 (ix2 b c))
          (fun c => g (ix2 (0 : Fin 1) c)) (fun c => be (ix2 (0 : Fin 1) c)) b ch := by
  unfold newX
  rw [addf_apply, mulf_apply, mulf_apply, subf_apply, paramOverBatch_apply, paramOverBatch_apply, overBatch_apply,
    overBatch_apply, underUnit_apply, pooled_apply, chanInvStd_apply, chanVar_apply, chanMean_apply, chanMean_apply]
  rfl

end Cert.KernelIdeal.Hand

end
-- ==== Proof.RefOps.lean ====
import proofs.«151176_j23983097381582_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The program's host operations, in order. -/
abbrev ops : List (HloOp τ sig (Elt F)) :=
  [ StableHlo.nullary main_cst (constant S_ .f32 0x00000000#32),
    StableHlo.binary main_arg0 main_cst main_v0 ((fun x v => Host.reduceAdd x v reducesTo_S64x512x32x32_S512_d0_2_3 h_S_) : (⟨S64x512x32x32, .f32⟩ : BufTy).Contents (Elt F) → (⟨S_, .f32⟩ : BufTy).Contents (Elt F) → (⟨S512, .f32⟩ : BufTy).Contents (Elt F)),
    StableHlo.nullary main_cst_0 (constant S_ .f32 0x47800000#32),
    StableHlo.unary main_cst_0 main_v1 (broadcastInDim S512 ![] bcast_S_S512 : (⟨S_, .f32⟩ : BufTy).Contents (Elt F) → (⟨S512, .f32⟩ : BufTy).Contents (Elt F)),
    StableHlo.binary main_v0 main_v1 main_v2 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S64x512x32x32, .f32⟩) main_call0.cst main_call0.v0 (fun x v => Host.reduceAdd x v reducesTo_S64x512x32x32_S512_d0_2_3 h_S_),
    StableHlo.TRef.unary main_call0.v0 main_call0.v1 (broadcastInDim S1x512x1x1 ![1] bcast_S512_S1x512x1x1_1),
    StableHlo.TRef.nullary main_call0.cst_0 (constant S_ .f32 0x47800000#32),
    StableHlo.TRef.unary main_call0.cst_0 main_call0.v2 (broadcastInDim S1x512x1x1 ![] bcast_S_S1x512x1x1),
    StableHlo.TRef.binary main_call0.v1 main_call0.v2 main_call0.v3 Host.divf,
    StableHlo.TRef.unary main_call0.v3 main_call0.v4 (broadcastInDim S64x512x32x32 ![0, 1, 2, 3] bcast_S1x512x1x1_S64x512x32x32_0_1_2_3),
    StableHlo.TRef.binary (.of main_arg0 : StableHlo.TRef sig ⟨S64x512x32x32, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S64x512x32x32_S512_d0_2_3 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v2 main_v4 (broadcastInDim S1x512x1x1 ![1] bcast_S512_S1x512x1x1_1 : (⟨S512, .f32⟩ : BufTy).Contents (Elt F) → (⟨S1x512x1x1, .f32⟩ : BufTy).Contents (Elt F)),
    StableHlo.unary main_v4 main_v5 (broadcastInDim S64x512x32x32 ![0, 1, 2, 3] bcast_S1x512x1x1_S64x512x32x32_0_1_2_3 : (⟨S1x512x1x1, .f32⟩ : BufTy).Contents (Elt F) → (⟨S64x512x32x32, .f32⟩ : BufTy).Contents (Elt F)),
    StableHlo.binary main_arg0 main_v5 main_v6 (subf : (⟨S64x512x32x32, .f32⟩ : BufTy).Contents (Elt F) → (⟨S64x512x32x32, .f32⟩ : BufTy).Contents (Elt F) → (⟨S64x512x32x32, .f32⟩ : BufTy).Contents (Elt F)),
    StableHlo.nullary main_cst_1 (constant S_ .f32 0x3727C5AC#32),
    StableHlo.unary main_cst_1 main_v7 (broadcastInDim S512 ![] bcast_S_S512 : (⟨S_, .f32⟩ : BufTy).Contents (Elt F) → (⟨S512, .f32⟩ : BufTy).Contents (Elt F)),
    StableHlo.binary main_v3 main_v7 main_v8 (addf : (⟨S512, .f32⟩ : BufTy).Contents (Elt F) → (⟨S512, .f32⟩ : BufTy).Contents (Elt F) → (⟨S512, .f32⟩ : BufTy).Contents (Elt F)),
    StableHlo.unary main_v8 main_v9 (Host.rsqrt : (⟨S512, .f32⟩ : BufTy).Contents (Elt F) → (⟨S512, .f32⟩ : BufTy).Contents (Elt F)),
    StableHlo.unary main_v9 main_v10 (broadcastInDim S1x512x1x1 ![1] bcast_S512_S1x512x1x1_1 : (⟨S512, .f32⟩ : BufTy).Contents (Elt F) → (⟨S1x512x1x1, .f32⟩ : BufTy).Contents (Elt F)),
    StableHlo.unary main_v10 main_v11 (broadcastInDim S64x512x32x32 ![0, 1, 2, 3] bcast_S1x512x1x1_S64x512x32x32_0_1_2_3 : (⟨S1x512x1x1, .f32⟩ : BufTy).Contents (Elt F) → (⟨S64x512x32x32, .f32⟩ : BufTy).Contents (Elt F)),
    StableHlo.binary main_v6 main_v11 main_v12 (mulf : (⟨S64x512x32x32, .f32⟩ : BufTy).Contents (Elt F) → (⟨S64x512x32x32, .f32⟩ : BufTy).Contents (Elt F) → (⟨S64x512x32x32, .f32⟩ : BufTy).Contents (Elt F)),
    StableHlo.unary main_arg3 main_v13 (broadcastInDim S1x1x512x1x1 ![0, 2] bcast_S1x512_S1x1x512x1x1_0_2 : (⟨S1x512, .f32⟩ : BufTy).Contents (Elt F) → (⟨S1x1x512x1x1, .f32⟩ : BufTy).Contents (Elt F)),
    StableHlo.unary main_v12 main_v14 (broadcastInDim S1x64x512x32x32 ![1, 2, 3, 4] bcast_S64x512x32x32_S1x64x512x32x32_1_2_3_4 : (⟨S64x512x32x32, .f32⟩ : BufTy).Contents (Elt F) → (⟨S1x64x512x32x32, .f32⟩ : BufTy).Contents (Elt F)),
    StableHlo.unary main_v13 main_v15 (broadcastInDim S1x64x512x32x32 ![0, 1, 2, 3, 4] bcast_S1x1x512x1x1_S1x64x512x32x32_0_1_2_3_4 : (⟨S1x1x512x1x1, .f32⟩ : BufTy).Contents (Elt F) → (⟨S1x64x512x32x32, .f32⟩ : BufTy).Contents (Elt F)),
    StableHlo.binary main_v14 main_v15 main_v16 (mulf : (⟨S1x64x512x32x32, .f32⟩ : BufTy).Contents (Elt F) → (⟨S1x64x512x32x32, .f32⟩ : BufTy).Contents (Elt F) → (⟨S1x64x512x32x32, .f32⟩ : BufTy).Contents (Elt F)),
    StableHlo.unary main_arg4 main_v17 (broadcastInDim S1x1x512x1x1 ![0, 2] bcast_S1x512_S1x1x512x1x1_0_2 : (⟨S1x512, .f32⟩ : BufTy).Contents (Elt F) → (⟨S1x1x512x1x1, .f32⟩ : BufTy).Contents (Elt F)),
    StableHlo.unary main_v17 main_v18 (broadcastInDim S1x64x512x32x32 ![0, 1, 2, 3, 4] bcast_S1x1x512x1x1_S1x64x512x32x32_0_1_2_3_4 : (⟨S1x1x512x1x1, .f32⟩ : BufTy).Contents (Elt F) → (⟨S1x64x512x32x32, .f32⟩ : BufTy).Contents (Elt F)),
    StableHlo.binary main_v16 main_v18 main_v19 (addf : (⟨S1x64x512x32x32, .f32⟩ : BufTy).Contents (Elt F) → (⟨S1x64x512x32x32, .f32⟩ : BufTy).Contents (Elt F) → (⟨S1x64x512x32x32, .f32⟩ : BufTy).Contents (Elt F)),
    StableHlo.nullary main_cst_2 (constant S_ .f32 0x00000000#32),
    StableHlo.binary main_v19 main_cst_2 main_v20 ((fun x v => Host.reduceAdd x v reducesTo_S1x64x512x32x32_S1x64x512_d3_4 h_S_) : (⟨S1x64x512x32x32, .f32⟩ : BufTy).Contents (Elt F) → (⟨S_, .f32⟩ : BufTy).Contents (Elt F) → (⟨S1x64x512, .f32⟩ : BufTy).Contents (Elt F)),
    StableHlo.nullary main_cst_3 (constant S_ .f32 0x44800000#32),
    StableHlo.unary main_cst_3 main_v21 (broadcastInDim S1x64x512 ![] bcast_S_S1x64x512 : (⟨S_, .f32⟩ : BufTy).Contents (Elt F) → (⟨S1x64x512, .f32⟩ : BufTy).Contents (Elt F)),
    StableHlo.binary main_v20 main_v21 main_v22 (Host.divf : (⟨S1x64x512, .f32⟩ : BufTy).Contents (Elt F) → (⟨S1x64x512, .f32⟩ : BufTy).Contents (Elt F) → (⟨S1x64x512, .f32⟩ : BufTy).Contents (Elt F)),
    StableHlo.unary main_arg1 main_v23 ((transpose S1x16x512 [0, 2, 1] · transposes_S1x512x16_S1x16x512_0_2_1) : (⟨S1x512x16, .f32⟩ : BufTy).Contents (Elt F) → (⟨S1x16x512, .f32⟩ : BufTy).Contents (Elt F)),
    StableHlo.nullary main_cst_4 (constant S_ .f32 0x00000000#32),
    StableHlo.binary main_v23 main_cst_4 main_v24 ((fun x v => Host.reduceAdd x v reducesTo_S1x16x512_S1x16_d2 h_S_) : (⟨S1x16x512, .f32⟩ : BufTy).Contents (Elt F) → (⟨S_, .f32⟩ : BufTy).Contents (Elt F) → (⟨S1x16, .f32⟩ : BufTy).Contents (Elt F)),
    StableHlo.unary main_v24 main_v25 (broadcastInDim S1x16x1 ![0, 1] bcast_S1x16_S1x16x1_0_1 : (⟨S1x16, .f32⟩ : BufTy).Contents (Elt F) → (⟨S1x16x1, .f32⟩ : BufTy).Contents (Elt F)),
    StableHlo.nullary main_cst_5 (constant S_ .f32 0x44000000#32),
    StableHlo.unary main_cst_5 main_v26 (broadcastInDim S1x16x1 ![] bcast_S_S1x16x1 : (⟨S_, .f32⟩ : BufTy).Contents (Elt F) → (⟨S1x16x1, .f32⟩ : BufTy).Contents (Elt F)),
    StableHlo.binary main_v25 main_v26 main_v27 (Host.divf : (⟨S1x16x1, .f32⟩ : BufTy).Contents (Elt F) → (⟨S1x16x1, .f32⟩ : BufTy).Contents (Elt F) → (⟨S1x16x1, .f32⟩ : BufTy).Contents (Elt F)),
    StableHlo.nullary main_c_6 (constantI S_ 32 0#32),
    StableHlo.TRef.nullary main_call1.cst (constant S_ .f32 0x00000000#32),
    StableHlo.TRef.binary (.of main_v23 : StableHlo.TRef sig ⟨S1x16x512, .f32⟩) main_call1.cst main_call1.v0 (fun x v => Host.reduceAdd x v reducesTo_S1x16x512_S1x16_d2 h_S_),
    StableHlo.TRef.unary main_call1.v0 main_call1.v1 (broadcastInDim S1x16x1 ![0, 1] bcast_S1x16_S1x16x1_0_1),
    StableHlo.TRef.nullary main_call1.cst_0 (constant S_ .f32 0x44000000#32),
    StableHlo.TRef.unary main_call1.cst_0 main_call1.v2 (broadcastInDim S1x16x1 ![] bcast_S_S1x16x1),
    StableHlo.TRef.binary main_call1.v1 main_call1.v2 main_call1.v3 Host.divf,
    StableHlo.TRef.unary main_call1.v3 main_call1.v4 (broadcastInDim S1x16x512 ![0, 1, 2] bcast_S1x16x1_S1x16x512_0_1_2),
    StableHlo.TRef.binary (.of main_v23 : StableHlo.TRef sig ⟨S1x16x512, .f32⟩) main_call1.v4 main_call1.v5 subf,
    StableHlo.TRef.binary main_call1.v5 main_call1.v5 main_call1.v6 mulf,
    StableHlo.TRef.unary (.of main_c_6 : StableHlo.TRef sig ⟨S_, .i32⟩) main_call1.v7 (sitofp .f32),
    StableHlo.TRef.nullary main_call1.cst_1 (constant S_ .f32 0x44000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S1x16x512_S1x16_d2 h_S_),
    StableHlo.TRef.unary main_call1.v9 main_call1.v10 (broadcastInDim S1x16x1 ![0, 1] bcast_S1x16_S1x16x1_0_1),
    StableHlo.TRef.unary main_call1.v8 main_call1.v11 (broadcastInDim S1x16x1 ![] bcast_S_S1x16x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x16x1 ![] bcast_S_S1x16x1),
    StableHlo.TRef.ternary main_call1.v13 main_call1.v12 main_call1.call0.v1 main_call1.call0.v2 (fun p a b => select (broadcastInDim S1x16x1 ![] bcast_S_S1x16x1 p) a b),
    StableHlo.unary main_v27 main_v29 (broadcastInDim S1x16x512 ![0, 1, 2] bcast_S1x16x1_S1x16x512_0_1_2 : (⟨S1x16x1, .f32⟩ : BufTy).Contents (Elt F) → (⟨S1x16x512, .f32⟩ : BufTy).Contents (Elt F)),
    StableHlo.binary main_v23 main_v29 main_v30 (subf : (⟨S1x16x512, .f32⟩ : BufTy).Contents (Elt F) → (⟨S1x16x512, .f32⟩ : BufTy).Contents (Elt F) → (⟨S1x16x512, .f32⟩ : BufTy).Contents (Elt F)),
    StableHlo.nullary main_cst_7 (constant S_ .f32 0x3727C5AC#32),
    StableHlo.unary main_cst_7 main_v31 (broadcastInDim S1x16x1 ![] bcast_S_S1x16x1 : (⟨S_, .f32⟩ : BufTy).Contents (Elt F) → (⟨S1x16x1, .f32⟩ : BufTy).Contents (Elt F)),
    StableHlo.binary main_v28 main_v31 main_v32 (addf : (⟨S1x16x1, .f32⟩ : BufTy).Contents (Elt F) → (⟨S1x16x1, .f32⟩ : BufTy).Contents (Elt F) → (⟨S1x16x1, .f32⟩ : BufTy).Contents (Elt F)),
    StableHlo.unary main_v32 main_v33 (Host.rsqrt : (⟨S1x16x1, .f32⟩ : BufTy).Contents (Elt F) → (⟨S1x16x1, .f32⟩ : BufTy).Contents (Elt F)),
    StableHlo.unary main_v33 main_v34 (broadcastInDim S1x16x512 ![0, 1, 2] bcast_S1x16x1_S1x16x512_0_1_2 : (⟨S1x16x1, .f32⟩ : BufTy).Contents (Elt F) → (⟨S1x16x512, .f32⟩ : BufTy).Contents (Elt F)),
    StableHlo.binary main_v30 main_v34 main_v35 (mulf : (⟨S1x16x512, .f32⟩ : BufTy).Contents (Elt F) → (⟨S1x16x512, .f32⟩ : BufTy).Contents (Elt F) → (⟨S1x16x512, .f32⟩ : BufTy).Contents (Elt F)),
    StableHlo.unary main_arg5 main_v36 (broadcastInDim S1x1x512 ![0, 2] bcast_S1x512_S1x1x512_0_2 : (⟨S1x512, .f32⟩ : BufTy).Contents (Elt F) → (⟨S1x1x512, .f32⟩ : BufTy).Contents (Elt F)),
    StableHlo.unary main_v36 main_v37 (broadcastInDim S1x16x512 ![0, 1, 2] bcast_S1x1x512_S1x16x512_0_1_2 : (⟨S1x1x512, .f32⟩ : BufTy).Contents (Elt F) → (⟨S1x16x512, .f32⟩ : BufTy).Contents (Elt F)),
    StableHlo.binary main_v35 main_v37 main_v38 (mulf : (⟨S1x16x512, .f32⟩ : BufTy).Contents (Elt F) → (⟨S1x16x512, .f32⟩ : BufTy).Contents (Elt F) → (⟨S1x16x512, .f32⟩ : BufTy).Contents (Elt F)),
    StableHlo.unary main_arg6 main_v39 (broadcastInDim S1x1x512 ![0, 2] bcast_S1x512_S1x1x512_0_2 : (⟨S1x512, .f32⟩ : BufTy).Contents (Elt F) → (⟨S1x1x512, .f32⟩ : BufTy).Contents (Elt F)),
    StableHlo.unary main_v39 main_v40 (broadcastInDim S1x16x512 ![0, 1, 2] bcast_S1x1x512_S1x16x512_0_1_2 : (⟨S1x1x512, .f32⟩ : BufTy).Contents (Elt F) → (⟨S1x16x512, .f32⟩ : BufTy).Contents (Elt F)),
    StableHlo.binary main_v38 main_v40 main_v41 (addf : (⟨S1x16x512, .f32⟩ : BufTy).Contents (Elt F) → (⟨S1x16x512, .f32⟩ : BufTy).Contents (Elt F) → (⟨S1x16x512, .f32⟩ : BufTy).Contents (Elt F)),
    StableHlo.unary main_v41 main_v42 ((transpose S1x512x16 [0, 2, 1] · transposes_S1x16x512_S1x512x16_0_2_1) : (⟨S1x16x512, .f32⟩ : BufTy).Contents (Elt F) → (⟨S1x512x16, .f32⟩ : BufTy).Contents (Elt F)),
    StableHlo.binary main_v22 main_v42 main_v43 ((fun l r => Host.dotGeneral dot_S1x64x512_S1x512x16_S1x64x16_2_1_1_2_0_0 none l r) : (⟨S1x64x512, .f32⟩ : BufTy).Contents (Elt F) → (⟨S1x512x16, .f32⟩ : BufTy).Contents (Elt F) → (⟨S1x64x16, .f32⟩ : BufTy).Contents (Elt F)),
    StableHlo.unary main_arg2 main_v44 (broadcastInDim S1x1x16 ![0, 2] bcast_S1x16_S1x1x16_0_2 : (⟨S1x16, .f32⟩ : BufTy).Contents (Elt F) → (⟨S1x1x16, .f32⟩ : BufTy).Contents (Elt F)),
    StableHlo.unary main_v44 main_v45 (broadcastInDim S1x64x16 ![0, 1, 2] bcast_S1x1x16_S1x64x16_0_1_2 : (⟨S1x1x16, .f32⟩ : BufTy).Contents (Elt F) → (⟨S1x64x16, .f32⟩ : BufTy).Contents (Elt F)),
    StableHlo.binary main_v43 main_v45 main_v46 (addf : (⟨S1x64x16, .f32⟩ : BufTy).Contents (Elt F) → (⟨S1x64x16, .f32⟩ : BufTy).Contents (Elt F) → (⟨S1x64x16, .f32⟩ : BufTy).Contents (Elt F)),
    StableHlo.nullary main_cst_8 (constant S_ .f32 0xFF800000#32),
    StableHlo.binary main_v46 main_cst_8 main_v47 ((fun x v => Host.reduce FloatOps.maximumf x v reducesTo_S1x64x16_S1x64_d2 h_S_) : (⟨S1x64x16, .f32⟩ : BufTy).Contents (Elt F) → (⟨S_, .f32⟩ : BufTy).Contents (Elt F) → (⟨S1x64, .f32⟩ : BufTy).Contents (Elt F)),
    StableHlo.nullary main_cst_9 (constant S_ .f32 0xFF800000#32),
    StableHlo.unary main_cst_9 main_v48 (broadcastInDim S1x64 ![] bcast_S_S1x64 : (⟨S_, .f32⟩ : BufTy).Contents (Elt F) → (⟨S1x64, .f32⟩ : BufTy).Contents (Elt F)),
    StableHlo.binary main_v48 main_v47 main_v49 (maximumf : (⟨S1x64, .f32⟩ : BufTy).Contents (Elt F) → (⟨S1x64, .f32⟩ : BufTy).Contents (Elt F) → (⟨S1x64, .f32⟩ : BufTy).Contents (Elt F)),
    StableHlo.unary main_v49 main_v50 (broadcastInDim S1x64x1 ![0, 1] bcast_S1x64_S1x64x1_0_1 : (⟨S1x64, .f32⟩ : BufTy).Contents (Elt F) → (⟨S1x64x1, .f32⟩ : BufTy).Contents (Elt F)),
    StableHlo.unary main_v50 main_v51 (broadcastInDim S1x64x16 ![0, 1, 2] bcast_S1x64x1_S1x64x16_0_1_2 : (⟨S1x64x1, .f32⟩ : BufTy).Contents (Elt F) → (⟨S1x64x16, .f32⟩ : BufTy).Contents (Elt F)),
    StableHlo.binary main_v46 main_v51 main_v52 (subf : (⟨S1x64x16, .f32⟩ : BufTy).Contents (Elt F) → (⟨S1x64x16, .f32⟩ : BufTy).Contents (Elt F) → (⟨S1x64x16, .f32⟩ : BufTy).Contents (Elt F)),
    StableHlo.unary main_v52 main_v53 (Host.exp : (⟨S1x64x16, .f32⟩ : BufTy).Contents (Elt F) → (⟨S1x64x16, .f32⟩ : BufTy).Contents (Elt F)),
    StableHlo.nullary main_cst_10 (constant S_ .f32 0x00000000#32),
    StableHlo.binary main_v53 main_cst_10 main_v54 ((fun x v => Host.reduceAdd x v reducesTo_S1x64x16_S1x64_d2 h_S_) : (⟨S1x64x16, .f32⟩ : BufTy).Contents (Elt F) → (⟨S_, .f32⟩ : BufTy).Contents (Elt F) → (⟨S1x64, .f32⟩ : BufTy).Contents (Elt F)),
    StableHlo.unary main_v54 main_v55 (broadcastInDim S1x64x1 ![0, 1] bcast_S1x64_S1x64x1_0_1 : (⟨S1x64, .f32⟩ : BufTy).Contents (Elt F) → (⟨S1x64x1, .f32⟩ : BufTy).Contents (Elt F)),
    StableHlo.unary main_v55 main_v56 (broadcastInDim S1x64x16 ![0, 1, 2] bcast_S1x64x1_S1x64x16_0_1_2 : (⟨S1x64x1, .f32⟩ : BufTy).Contents (Elt F) → (⟨S1x64x16, .f32⟩ : BufTy).Contents (Elt F)),
    StableHlo.binary main_v53 main_v56 main_v57 (Host.divf : (⟨S1x64x16, .f32⟩ : BufTy).Contents (Elt F) → (⟨S1x64x16, .f32⟩ : BufTy).Contents (Elt F) → (⟨S1x64x16, .f32⟩ : BufTy).Contents (Elt F)) ]

/-- Each touches TensorCore buffers only. -/
theorem ops_sub : (ops : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

end Cert.ReferenceIdeal.Hand

end
-- ==== Proof.RefHost.lean ====
/-
  What the reference program computes, as pure functions of its argument arrays.

  The normalized activations: μ'[c] is the mean of x over batch and plane, σ'²[c] the mean squared distance to
  μ'[c] (the library's variance routine: a mean, a centring, a square, a sum, a division by the corrected count,
  a not-a-number where that count is not positive), every element is centred and scaled by rsqrt(σ'² + ε),
  mapped through γ, β, and the plane is averaged:  new_x'[b, c] = (Σ_{h,w} ((x − μ')·rsqrt(σ'² + ε)·γ + β)) / 1024.
  The weights' normalization, the logits and the softmax are the same chain of operations the kernel's program
  applies to its own new_x: that chain is named once, beside the kernel's host lines, and this program's results
  are stated over the same names; it is never opened.
-/
import proofs.«151176_j23983097381582_1_alg».proof.Proof.Gen.ReferenceIdeal

noncomputable section

namespace Cert.ReferenceIdeal.Hand

open Idealize.ShloMosaic Cert.ReferenceIdeal Cert.ReferenceIdeal.Gen

variable {F : FTy → Type} [FloatOps F]

/-- A per-channel vector laid over batch and plane. -/
def overAll (v : FVec F S512 .f32) : FVec F S64x512x32x32 .f32 :=
  broadcastInDim S64x512x32x32 ![0, 1, 2, 3] bcast_S1x512x1x1_S64x512x32x32_0_1_2_3 (broadcastInDim S1x512x1x1 ![1] bcast_S512_S1x512x1x1_1 v)

/-- μ': the sum over batch and plane divided by 65536. -/
def meanAll (x : FVec F S64x512x32x32 .f32) : FVec F S512 .f32 :=
  Host.divf (Host.reduceAdd x (constant S_ .f32 0x00000000#32) reducesTo_S64x512x32x32_S512_d0_2_3 h_S_)
    (broadcastInDim S512 ![] bcast_S_S512 (constant S_ .f32 0x47800000#32))

/-- 65536 minus the degrees-of-freedom correction (an integer word converted). -/
def dofAll (c : IVec S_ 32) : FVec F S_ .f32 :=
  subf (constant S_ .f32 0x47800000#32) (sitofp .f32 c)

/-- x centred by the variance routine's own mean (the same sum, its quotient taken on a 1 × 512 × 1 × 1 column). -/
def centredAll (x : FVec F S64x512x32x32 .f32) : FVec F S64x512x32x32 .f32 :=
  subf x (broadcastInDim S64x512x32x32 ![0, 1, 2, 3] bcast_S1x512x1x1_S64x512x32x32_0_1_2_3
    (Host.divf (broadcastInDim S1x512x1x1 ![1] bcast_S512_S1x512x1x1_1
        (Host.reduceAdd x (constant S_ .f32 0x00000000#32) reducesTo_S64x512x32x32_S512_d0_2_3 h_S_))
      (broadcastInDim S1x512x1x1 ![] bcast_S_S1x512x1x1 (constant S_ .f32 0x47800000#32))))

/-- σ'²: the variance routine over batch and plane. -/
def varAll (x : FVec F S64x512x32x32 .f32) (c : IVec S_ 32) : FVec F S512 .f32 :=
  select (broadcastInDim S512 ![] bcast_S_S512 (cmpf .ogt (dofAll (F := F) c) (constant S_ .f32 0x00000000#32)))
    (Host.divf
      (Host.reduceAdd (mulf (centredAll x) (centredAll x)) (constant S_ .f32 0x00000000#32) reducesTo_S64x512x32x32_S512_d0_2_3 h_S_)
      (broadcastInDim S512 ![] bcast_S_S512 (dofAll (F := F) c)))
    (broadcastInDim S512 ![] bcast_S_S512 (id (constant S_ .f32 0x7FC00000#32)))

/-- Every element centred and scaled: (x − μ') · rsqrt(σ'² + ε). -/
def normAll (x : FVec F S64x512x32x32 .f32) : FVec F S64x512x32x32 .f32 :=
  mulf (subf x (overAll (meanAll x)))
    (overAll (Host.rsqrt (addf (varAll x (constantI S_ 32 0#32)) (broadcastInDim S512 ![] bcast_S_S512 (constant S_ .f32 0x3727C5AC#32)))))

/-- A 1 × 512 parameter row laid over router, batch and plane. -/
def paramOverAll (v : FVec F S1x512 .f32) : FVec F S1x64x512x32x32 .f32 :=
  broadcastInDim S1x64x512x32x32 ![0, 1, 2, 3, 4] bcast_S1x1x512x1x1_S1x64x512x32x32_0_1_2_3_4
    (broadcastInDim S1x1x512x1x1 ![0, 2] bcast_S1x512_S1x1x512x1x1_0_2 v)

/-- new_x': the affine map of the normalized elements, averaged over the plane. -/
def newX (x : FVec F S64x512x32x32 .f32) (g b : FVec F S1x512 .f32) : FVec F S1x64x512 .f32 :=
  Host.divf
    (Host.reduceAdd
      (addf (mulf (broadcastInDim S1x64x512x32x32 ![1, 2, 3, 4] bcast_S64x512x32x32_S1x64x512x32x32_1_2_3_4 (normAll x)) (paramOverAll g))
        (paramOverAll b))
      (constant S_ .f32 0x00000000#32) reducesTo_S1x64x512x32x32_S1x64x512_d3_4 h_S_)
    (broadcastInDim S1x64x512 ![] bcast_S_S1x64x512 (constant S_ .f32 0x44800000#32))

end Cert.ReferenceIdeal.Hand

end
-- ==== Proof.RefRun.lean ====
/-
  The reference program is a straight line of 114 host operations (the variance routine's lines, called twice, stand
  at their call sites).  Every weakly fair execution runs them in order and terminates; no operation writes an
  argument; and the three results hold the operations' composed terms of the arguments:
    new_x' (the normalized, pooled activations), the logits of new_x', the softmax of those logits.
-/
import proofs.«151176_j23983097381582_1_alg».proof.Proof.RefOps
import proofs.«151176_j23983097381582_1_alg».proof.Proof.RefHost
import proofs.«151176_j23983097381582_1_alg».proof.Proof.KIHost

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the chain has 114 steps and its re-association descends one level per step: past the default recursion bound
set_option maxRecDepth 8192 in
set_option maxHeartbeats 4000000 in
/-- @main is the sequence of its operations: the two windows it is printed in and the called routines unfolded.
    With the windows' and the routines' definitions opened at their calls and the sequencing re-associated
    (`bind_assoc`, `pure_bind`), both sides are one chain of single steps; the records' fields are their
    literal references by computation. -/
theorem main_eq (c : Dev nD) : main (F := F) c = seq ops := by
  simp only [main, main_part0, main_part1, fn_var.body, fn_where.body, fn_var_0.body, fn_where_1.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the results and at the arguments

For any contents `V` before the line, the fold of the 114 operations is read at one buffer by unrolling it and
taking, operation by operation from the last, the operation's function of its operands' contents where it writes the
buffer read and the contents before it where it does not (two distinct literal references are told apart by
computation).  What is left at a result is a term of `V` at the arguments only.  It is the named function of
RefHost.lean / KIHost.lean by unfolding those names: the reductions, the division, the reciprocal square root and the
exponential are kept folded meanwhile, so that the comparison walks the two terms' spines and never a sum over an
array's elements; the typed references of the variance routine's lines are literal, so their transports are the
identity.  An argument is written by no operation, so the fold leaves it as it was. -/

attribute [local irreducible] Host.reduceAdd Host.reduce Host.divf Host.rsqrt Host.exp in
set_option maxRecDepth 8192 in
set_option maxHeartbeats 4000000 in
/-- new_x': operations 1 … 51 (the mean, the variance routine, the normalization, the affine map, the plane mean). -/
private theorem v22_eq (V : Valuation τ sig (Elt F)) :
    after ops V (main_v22 : DevRef τ sig)
      = newX (V (main_arg0 : DevRef τ sig)) (V (main_arg3 : DevRef τ sig)) (V (main_arg4 : DevRef τ sig)) := by
  after_results_simp
  rfl

attribute [local irreducible] Host.reduceAdd Host.reduce Host.divf Host.rsqrt Host.exp in
set_option maxRecDepth 8192 in
set_option maxHeartbeats 4000000 in
/-- The logits: operations 52 … 98 (the weights transposed and normalized along their 512 axis with the second call
    of the variance routine, the batched product with new_x', the bias) over the term of new_x'. -/
private theorem v46_eq (V : Valuation τ sig (Elt F)) :
    after ops V (main_v46 : DevRef τ sig)
      = Cert.KernelIdeal.Hand.logits
          (newX (V (main_arg0 : DevRef τ sig)) (V (main_arg3 : DevRef τ sig)) (V (main_arg4 : DevRef τ sig)))
          (V (main_arg1 : DevRef τ sig)) (V (main_arg2 : DevRef τ sig)) (V (main_arg5 : DevRef τ sig))
          (V (main_arg6 : DevRef τ sig)) := by
  after_results_simp
  rfl

attribute [local irreducible] Host.reduceAdd Host.reduce Host.divf Host.rsqrt Host.exp in
set_option maxRecDepth 8192 in
set_option maxHeartbeats 4000000 in
/-- The probabilities: operations 99 … 114 (the row maximum, the shifted exponential, its row sum, the quotient) over
    the term of the logits. -/
private theorem v57_eq (V : Valuation τ sig (Elt F)) :
    after ops V (main_v57 : DevRef τ sig)
      = Cert.KernelIdeal.Hand.probs (Cert.KernelIdeal.Hand.logits
          (newX (V (main_arg0 : DevRef τ sig)) (V (main_arg3 : DevRef τ sig)) (V (main_arg4 : DevRef τ sig)))
          (V (main_arg1 : DevRef τ sig)) (V (main_arg2 : DevRef τ sig)) (V (main_arg5 : DevRef τ sig))
          (V (main_arg6 : DevRef τ sig))) := by
  after_results_simp
  rfl

private theorem arg0_eq (V : Valuation τ sig (Elt F)) :
    after ops V (main_arg0 : DevRef τ sig) = V (main_arg0 : DevRef τ sig) := by after_results_simp
private theorem arg1_eq (V : Valuation τ sig (Elt F)) :
    after ops V (main_arg1 : DevRef τ sig) = V (main_arg1 : DevRef τ sig) := by after_results_simp
private theorem arg2_eq (V : Valuation τ sig (Elt F)) :
    after ops V (main_arg2 : DevRef τ sig) = V (main_arg2 : DevRef τ sig) := by after_results_simp
private theorem arg3_eq (V : Valuation τ sig (Elt F)) :
    after ops V (main_arg3 : DevRef τ sig) = V (main_arg3 : DevRef τ sig) := by after_results_simp
private theorem arg4_eq (V : Valuation τ sig (Elt F)) :
    after ops V (main_arg4 : DevRef τ sig) = V (main_arg4 : DevRef τ sig) := by after_results_simp
private theorem arg5_eq (V : Valuation τ sig (Elt F)) :
    after ops V (main_arg5 : DevRef τ sig) = V (main_arg5 : DevRef τ sig) := by after_results_simp
private theorem arg6_eq (V : Valuation τ sig (Elt F)) :
    after ops V (main_arg6 : DevRef τ sig) = V (main_arg6 : DevRef τ sig) := by after_results_simp

/-- The results as terms of the arguments, and the arguments unchanged. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = newX (m ((c.tc : Thread nD τ).loc main_arg0)) (m ((c.tc : Thread nD τ).loc main_arg3)) (m ((c.tc : Thread nD τ).loc main_arg4))
      ∧ r.2.mem ((c.tc : Thread nD τ).loc main_v46)
          = Cert.KernelIdeal.Hand.logits
              (newX (m ((c.tc : Thread nD τ).loc main_arg0)) (m ((c.tc : Thread nD τ).loc main_arg3)) (m ((c.tc : Thread nD τ).loc main_arg4)))
              (m ((c.tc : Thread nD τ).loc main_arg1)) (m ((c.tc : Thread nD τ).loc main_arg2))
              (m ((c.tc : Thread nD τ).loc main_arg5)) (m ((c.tc : Thread nD τ).loc main_arg6))
      ∧ r.2.mem ((c.tc : Thread nD τ).loc main_v57)
          = Cert.KernelIdeal.Hand.probs (Cert.KernelIdeal.Hand.logits
              (newX (m ((c.tc : Thread nD τ).loc main_arg0)) (m ((c.tc : Thread nD τ).loc main_arg3)) (m ((c.tc : Thread nD τ).loc main_arg4)))
              (m ((c.tc : Thread nD τ).loc main_arg1)) (m ((c.tc : Thread nD τ).loc main_arg2))
              (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v22).trans (v22_eq _), (h c main_v46).trans (v46_eq _), (h c main_v57).trans (v57_eq _),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _)⟩)
    (run_main m ρ)

end Cert.ReferenceIdeal.Hand

end
-- ==== Proof.RefNewX.lean ====
/-
  The reference program's new_x' read at an entry, at the ideal instance: entry (0, b, c) of
  (Σ_{h,w} ((x − μ')·rsqrt(σ'² + ε)·γ + β)) / 1024 is the specification's formula at (b, c).  The sums over
  (batch, row, column) of a 64 × 512 × 32 × 32 array at channel c, and over (row, column) of the 1 × 64 × 512 × 32 × 32
  array at (0, b, c), are sums over the indices whose kept coordinates are fixed, re-indexed by the dropped
  coordinates; the variance routine's corrected count is 65536 − 0 = 65536 > 0, so its guard selects the quotient.
-/
import proofs.«151176_j23983097381582_1_alg».proof.Proof.RefHost
import proofs.«151176_j23983097381582_1_alg».proof.Proof.Spec
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

open scoped BigOperators

noncomputable section

namespace Cert.ReferenceIdeal.Hand

open Idealize.ShloMosaic Idealize.ShloMosaic.ValueIdx Cert.ReferenceIdeal Cert.ReferenceIdeal.Gen

/-! ## The two multi-axis sums, re-indexed by the dropped coordinates -/

/-- An index of the 64 × 512 × 32 × 32 array drops (batch, row, column) to channel `c` exactly when its channel
    coordinate is `c`. -/
private theorem drop_d0_2_3_iff (hr : S64x512x32x32.ReducesTo [0, 2, 3] S512) (i : S64x512x32x32.Idx) (c : Fin 512) :
    hr.drop i = ix1 c ↔ i 1 = c := by
  constructor
  · intro h
    have h0 := congrFun h 0
    exact Fin.ext ((Shape.ReducesTo.drop_apply_val_of_eq hr i 0 1).symm.trans (congrArg Fin.val h0))
  · intro h
    funext a
    obtain rfl : a = 0 := Subsingleton.elim _ _
    exact Fin.ext ((Shape.ReducesTo.drop_apply_val_of_eq hr i 0 1).trans (congrArg Fin.val h))

/-- The sum over batch, row and column of a 64 × 512 × 32 × 32 array, read at channel `c`: the indices that drop to
    `c` are exactly the (b, c, h, w), so the filtered sum is the triple sum over the dropped coordinates. -/
theorem hostReduceAdd_d0_2_3 (hr : S64x512x32x32.ReducesTo [0, 2, 3] S512) (f : S64x512x32x32.Idx → EReal) (init : EReal)
    (c : Fin 512) :
    Ideal.hostReduceAdd hr f init (ix1 c) = init + ∑ b : Fin 64, ∑ h : Fin 32, ∑ w : Fin 32, f (ix4 b c h w) := by
  unfold Ideal.hostReduceAdd
  congr 1
  calc ∑ i ∈ Finset.univ.filter (fun i => hr.drop i = ix1 c), f i
      = ∑ p : Fin 64 × Fin 32 × Fin 32, f (ix4 p.1 c p.2.1 p.2.2) := by
        symm
        refine Finset.sum_nbij' (fun p => ix4 p.1 c p.2.1 p.2.2) (fun i => (i 0, i 2, i 3)) ?_ ?_ ?_ ?_ ?_
        · intro p _
          exact Finset.mem_filter.mpr ⟨Finset.mem_univ _, (drop_d0_2_3_iff hr _ c).mpr rfl⟩
        · intro i _; exact Finset.mem_univ _
        · intro p _; rfl
        · intro i hi
          have hc : i 1 = c := (drop_d0_2_3_iff hr i c).mp (Finset.mem_filter.mp hi).2
          show ix4 (i 0) c (i 2) (i 3) = i
          rw [← hc]; exact (eq_ix4 i).symm
        · intro p _; rfl
    _ = ∑ b : Fin 64, ∑ h : Fin 32, ∑ w : Fin 32, f (ix4 b c h w) := by
        rw [Fintype.sum_prod_type]
        refine Finset.sum_congr rfl fun b _ => ?_
        rw [Fintype.sum_prod_type]

/-- An index of the 1 × 64 × 512 × 32 × 32 array drops (row, column) to (a, b, c) exactly when its first three
    coordinates are a, b, c. -/
private theorem drop_d3_4_iff (hr : S1x64x512x32x32.ReducesTo [3, 4] S1x64x512) (i : S1x64x512x32x32.Idx)
    (a : Fin 1) (b : Fin 64) (c : Fin 512) :
    hr.drop i = ix3 a b c ↔ (i 0 = a ∧ i 1 = b ∧ i 2 = c) := by
  constructor
  · intro h
    refine ⟨?_, ?_, ?_⟩
    · exact Fin.ext ((Shape.ReducesTo.drop_apply_val_of_eq hr i 0 0).symm.trans (congrArg Fin.val (congrFun h 0)))
    · exact Fin.ext ((Shape.ReducesTo.drop_apply_val_of_eq hr i 1 1).symm.trans (congrArg Fin.val (congrFun h 1)))
    · exact Fin.ext ((Shape.ReducesTo.drop_apply_val_of_eq hr i 2 2).symm.trans (congrArg Fin.val (congrFun h 2)))
  · rintro ⟨h0, h1, h2⟩
    funext d
    match d with
    | ⟨0, _⟩ => exact Fin.ext ((Shape.ReducesTo.drop_apply_val_of_eq hr i 0 0).trans (congrArg Fin.val h0))
    | ⟨1, _⟩ => exact Fin.ext ((Shape.ReducesTo.drop_apply_val_of_eq hr i 1 1).trans (congrArg Fin.val h1))
    | ⟨2, _⟩ => exact Fin.ext ((Shape.ReducesTo.drop_apply_val_of_eq hr i 2 2).trans (congrArg Fin.val h2))

/-- The sum over row and column of a 1 × 64 × 512 × 32 × 32 array, read at (a, b, c): the double sum over the dropped
    coordinates. -/
theorem hostReduceAdd_d3_4 (hr : S1x64x512x32x32.ReducesTo [3, 4] S1x64x512) (f : S1x64x512x32x32.Idx → EReal) (init : EReal)
    (a : Fin 1) (b : Fin 64) (c : Fin 512) :
    Ideal.hostReduceAdd hr f init (ix3 a b c) = init + ∑ h : Fin 32, ∑ w : Fin 32, f (ix5 a b c h w) := by
  unfold Ideal.hostReduceAdd
  congr 1
  calc ∑ i ∈ Finset.univ.filter (fun i => hr.drop i = ix3 a b c), f i
      = ∑ p : Fin 32 × Fin 32, f (ix5 a b c p.1 p.2) := by
        symm
        refine Finset.sum_nbij' (fun p => ix5 a b c p.1 p.2) (fun i => (i 3, i 4)) ?_ ?_ ?_ ?_ ?_
        · intro p _
          exact Finset.mem_filter.mpr ⟨Finset.mem_univ _, (drop_d3_4_iff hr _ a b c).mpr ⟨rfl, rfl, rfl⟩⟩
        · intro i _; exact Finset.mem_univ _
        · intro p _; rfl
        · intro i hi
          obtain ⟨h0, h1, h2⟩ := (drop_d3_4_iff hr i a b c).mp (Finset.mem_filter.mp hi).2
          show ix5 a b c (i 3) (i 4) = i
          rw [← h0, ← h1, ← h2]; exact (eq_ix5 i).symm
        · intro p _; rfl
    _ = ∑ h : Fin 32, ∑ w : Fin 32, f (ix5 a b c h w) := by
        rw [Fintype.sum_prod_type]

/-! ## The broadcasts read at an index -/

/-- A per-channel vector laid over batch and plane reads its channel's entry. -/
theorem overAll_apply (v : FVec Ideal S512 .f32) (b : Fin 64) (c : Fin 512) (h w : Fin 32) :
    overAll v (ix4 b c h w) = v (ix1 c) := by
  unfold overAll
  rw [broadcastInDim_apply ![0, 1, 2, 3] _ _ (ix4 b c h w) (ix4 (0 : Fin 1) c (0 : Fin 1) (0 : Fin 1))
    (fun a => match a with | ⟨0, _⟩ => rfl | ⟨1, _⟩ => rfl | ⟨2, _⟩ => rfl | ⟨3, _⟩ => rfl)]
  exact broadcastInDim_apply (t := S1x512x1x1) ![1] _ v (ix4 (0 : Fin 1) c (0 : Fin 1) (0 : Fin 1)) (ix1 c) (fun a => match a with | ⟨0, _⟩ => rfl)

/-- A 1 × 512 parameter row laid over router, batch and plane reads its channel's entry. -/
theorem paramOverAll_apply (v : FVec Ideal S1x512 .f32) (a : Fin 1) (b : Fin 64) (c : Fin 512) (h w : Fin 32) :
    paramOverAll v (ix5 a b c h w) = v (ix2 (0 : Fin 1) c) := by
  unfold paramOverAll
  rw [broadcastInDim_apply ![0, 1, 2, 3, 4] _ _ (ix5 a b c h w) (ix5 (0 : Fin 1) (0 : Fin 1) c (0 : Fin 1) (0 : Fin 1))
    (fun d => match d with | ⟨0, _⟩ => rfl | ⟨1, _⟩ => rfl | ⟨2, _⟩ => rfl | ⟨3, _⟩ => rfl | ⟨4, _⟩ => rfl)]
  exact broadcastInDim_apply (t := S1x1x512x1x1) ![0, 2] _ v (ix5 (0 : Fin 1) (0 : Fin 1) c (0 : Fin 1) (0 : Fin 1)) (ix2 (0 : Fin 1) c) (fun d => match d with | ⟨0, _⟩ => rfl | ⟨1, _⟩ => rfl)

/-- The activations laid under a leading unit axis read the same entry. -/
theorem lead_apply (y : FVec Ideal S64x512x32x32 .f32) (a : Fin 1) (b : Fin 64) (c : Fin 512) (h w : Fin 32) :
    broadcastInDim S1x64x512x32x32 ![1, 2, 3, 4] bcast_S64x512x32x32_S1x64x512x32x32_1_2_3_4 y (ix5 a b c h w)
      = y (ix4 b c h w) :=
  broadcastInDim_apply (t := S1x64x512x32x32) ![1, 2, 3, 4] _ y (ix5 a b c h w) (ix4 b c h w)
    (fun d => match d with | ⟨0, _⟩ => rfl | ⟨1, _⟩ => rfl | ⟨2, _⟩ => rfl | ⟨3, _⟩ => rfl)

/-! ## The statistics read at a channel -/

/-- μ' at channel `c` is the specification's mean: the zero initial value plus the triple sum, over 65536. -/
theorem meanAll_apply (x : FVec Ideal S64x512x32x32 .f32) (c : Fin 512) :
    meanAll x (ix1 c) = Cert.Spec.meanAll (fun b c h w => x (ix4 b c h w)) c := by
  unfold meanAll Cert.Spec.meanAll
  rw [hostDivf_apply, hostReduceAdd_apply, hostReduceAdd_d0_2_3, broadcastInDim_scalar_apply, constant_apply, constant_apply,
    Ideal.ofBits_zero_f32, zero_add]

/-- The variance routine centres by its own mean, a quotient taken on a 1 × 512 × 1 × 1 column: at an index it is the
    same value as μ'. -/
theorem centredAll_apply (x : FVec Ideal S64x512x32x32 .f32) (b : Fin 64) (c : Fin 512) (h w : Fin 32) :
    centredAll x (ix4 b c h w) = x (ix4 b c h w) - Cert.Spec.meanAll (fun b c h w => x (ix4 b c h w)) c := by
  unfold centredAll Cert.Spec.meanAll
  rw [subf_apply, broadcastInDim_apply ![0, 1, 2, 3] _ _ (ix4 b c h w) (ix4 (0 : Fin 1) c (0 : Fin 1) (0 : Fin 1))
      (fun a => match a with | ⟨0, _⟩ => rfl | ⟨1, _⟩ => rfl | ⟨2, _⟩ => rfl | ⟨3, _⟩ => rfl),
    hostDivf_apply,
    broadcastInDim_apply (t := S1x512x1x1) ![1] _ _ (ix4 (0 : Fin 1) c (0 : Fin 1) (0 : Fin 1)) (ix1 c)
      (fun a => match a with | ⟨0, _⟩ => rfl),
    hostReduceAdd_apply, hostReduceAdd_d0_2_3, broadcastInDim_scalar_apply, constant_apply, constant_apply,
    Ideal.ofBits_zero_f32, zero_add]

/-- The pattern 0x47800000 denotes the real 65536. -/
private theorem ofBits_65536 : Ideal.ofBits .f32 0x47800000#32 = ((65536 : ℝ) : EReal) := by
  simp [Ideal.ofBits, Ideal.ieee, -EReal.coe_mul]; norm_num

/-- The corrected count: 65536 minus the converted integer zero is 65536. -/
theorem dofAll_apply (i : S_.Idx) : dofAll (F := Ideal) (constantI S_ 32 0#32) i = Cert.Spec.nChan := by
  show Ideal.ofBits .f32 0x47800000#32 - (Scalar.sitofp .f32 0#32 : Ideal .f32) = _
  rw [sitofp_zero, sub_zero]

/-- The guard of the variance routine holds: 65536 > 0. -/
theorem guard_apply (i : S_.Idx) :
    cmpf .ogt (dofAll (F := Ideal) (constantI S_ 32 0#32)) (constant S_ .f32 0x00000000#32) i = 1#1 := by
  rw [cmpf_apply, dofAll_apply, constant_apply, Ideal.ofBits_zero_f32]
  show BitVec.ofBool (decide ((0 : EReal) < Cert.Spec.nChan)) = 1#1
  have hpos : (0 : EReal) < Cert.Spec.nChan := by
    show (0 : EReal) < Ideal.ofBits .f32 0x47800000#32
    rw [ofBits_65536]; exact_mod_cast (by norm_num : (0 : ℝ) < 65536)
  rw [decide_eq_true hpos]; rfl

/-- σ'² at channel `c` is the specification's variance: the guard selects the quotient, whose dividend is the triple
    sum of the squared centred entries and whose divisor is 65536. -/
theorem varAll_apply (x : FVec Ideal S64x512x32x32 .f32) (c : Fin 512) :
    varAll x (constantI S_ 32 0#32) (ix1 c) = Cert.Spec.varAll (fun b c h w => x (ix4 b c h w)) c := by
  unfold varAll
  rw [select_apply, broadcastInDim_scalar_apply, guard_apply, select_one, hostDivf_apply, hostReduceAdd_apply,
    hostReduceAdd_d0_2_3, broadcastInDim_scalar_apply, dofAll_apply, constant_apply, Ideal.ofBits_zero_f32, zero_add]
  unfold Cert.Spec.varAll
  congr 1
  refine Finset.sum_congr rfl fun b _ => Finset.sum_congr rfl fun h _ => Finset.sum_congr rfl fun w _ => ?_
  rw [mulf_apply, centredAll_apply]

/-! ## The normalized elements and the pooled result -/

/-- The host's reciprocal square root at an index is the ideal instance's function of the element. -/
theorem hostRsqrt_apply {s : Shape} {φ : FTy} (v : FVec Ideal s φ) (i : s.Idx) : Host.rsqrt v i = Ideal.rsqrt (v i) := rfl

/-- Every element centred and scaled: (x − μ') · rsqrt(σ'² + ε) at (b, c, h, w). -/
theorem normAll_apply (x : FVec Ideal S64x512x32x32 .f32) (b : Fin 64) (c : Fin 512) (h w : Fin 32) :
    normAll x (ix4 b c h w)
      = (x (ix4 b c h w) - Cert.Spec.meanAll (fun b c h w => x (ix4 b c h w)) c)
          * Ideal.rsqrt (Cert.Spec.varAll (fun b c h w => x (ix4 b c h w)) c + Cert.Spec.eps) := by
  unfold normAll
  rw [mulf_apply, subf_apply, overAll_apply, overAll_apply, meanAll_apply, hostRsqrt_apply, addf_apply, varAll_apply,
    broadcastInDim_scalar_apply, constant_apply]

/-- new_x' at entry (0, b, c) is the specification's formula of the activations. -/
theorem newX_apply (x : FVec Ideal S64x512x32x32 .f32) (g be : FVec Ideal S1x512 .f32) (b : Fin 64) (ch : Fin 512) :
    newX x g be (ix3 (0 : Fin 1) b ch)
      = Cert.Spec.normPooled (fun b c h w => x (ix4 b c h w))
          (fun c => g (ix2 (0 : Fin 1) c)) (fun c => be (ix2 (0 : Fin 1) c)) b ch := by
  unfold newX Cert.Spec.normPooled
  rw [hostDivf_apply, hostReduceAdd_apply, hostReduceAdd_d3_4, broadcastInDim_scalar_apply, constant_apply, constant_apply,
    Ideal.ofBits_zero_f32, zero_add]
  congr 1
  refine Finset.sum_congr rfl fun h _ => Finset.sum_congr rfl fun w _ => ?_
  rw [addf_apply, mulf_apply, lead_apply, paramOverAll_apply, paramOverAll_apply, normAll_apply]

end Cert.ReferenceIdeal.Hand

end
-- ==== Proof.Finite.lean ====
/-
  The precondition says every entry of every float argument has absolute value below +∞.  At the ideal instance an
  entry is an extended real, and one whose absolute value is below +∞ is a real number: so under the precondition
  the activations and the affine parameters γ, β are arrays of real numbers.
-/
import proofs.«151176_j23983097381582_1_alg».proof.Defs
import proofs.«151176_j23983097381582_1_alg».proof.Proof.Gen.KernelIdeal
import proofs.«151176_j23983097381582_1_alg».proof.Proof.Gen.Pre_finite_inputs
import proofs.«151176_j23983097381582_1_alg».proof.Proof.LibReal
import Idealize.ShloMosaic.Lib.ReduceAll

noncomputable section

namespace Cert.KernelIdeal.Hand

open Idealize.ShloMosaic Idealize.ShloMosaic.TcCoe Idealize.SL.Sem Cert.KernelIdeal Cert.LibReal

/-- The scalar shape has exactly one index: there is no axis to give a coordinate on. -/
private instance subsingleton_scalar_idx : Subsingleton Cert.Pre_finite_inputs.S_.Idx :=
  ⟨fun a b => funext fun d => d.elim0⟩

/-- An extended real whose absolute value `max x (-x)` lies strictly below `+∞` is a real number: at `⊥` and
    at `⊤` that maximum is `⊤`, which is not below itself, and every other extended real is a real. -/
private theorem isReal_of_abs_lt (x : EReal)
    (h : Ideal.cmp .olt (max x (-x)) (Ideal.ofBits .f32 0x7F800000#32) = 1#1) : IsReal x := by
  have htop : Ideal.ofBits .f32 0x7F800000#32 = (⊤ : EReal) := by
    simp [Ideal.ofBits, Ideal.ieee]
  rw [htop] at h
  induction x using EReal.rec with
  | bot => simp [Ideal.cmp] at h
  | coe r => exact IsReal.coe r
  | top => simp [Ideal.cmp] at h

/-- One conjunct of the precondition, for an array `x` of any shape: if the conjunction over all indices of
    `|x i| < +∞` is true then every entry of `x` is real.  The conjunction over all axes gives the comparison at
    each index, and the comparison at an index is the scalar fact above. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1)
    (i : s.Idx) : IsReal (x i) :=
  isReal_of_abs_lt (x i) (Host.reduce_andi_all _ _ hr hu j e i)

/-- Under the precondition the activations, γ and β hold real numbers at every index. -/
theorem real_of_pre (m : (ℓ : Loc nD τ sig) → Buf (Elt Ideal) ℓ) (h : Cert.Pre_KernelIdeal m) (c : Dev nD) :
    (∀ i, IsReal ((m ((c.tc : Thread nD τ).loc main_arg0) : S64x512x32x32.Idx → EReal) i))
    ∧ (∀ i, IsReal ((m ((c.tc : Thread nD τ).loc main_arg3) : S1x512.Idx → EReal) i))
    ∧ (∀ i, IsReal ((m ((c.tc : Thread nD τ).loc main_arg4) : S1x512.Idx → EReal) i)) := by
  -- the predicate's one result, at its one index, is the conjunction of seven per-array conjunctions,
  -- associated to the left in argument order
  have h0 := congrFun (h c) (fun a => a.elim0)
  dsimp only [Cert.Pre_finite_inputs.fn, Cert.Pre_finite_inputs.fn_part1, andi] at h0
  obtain ⟨h0, _⟩ := IntOp.andi_eq_one.1 h0
  obtain ⟨h0, _⟩ := IntOp.andi_eq_one.1 h0
  obtain ⟨h0, hβ⟩ := IntOp.andi_eq_one.1 h0
  obtain ⟨h0, hγ⟩ := IntOp.andi_eq_one.1 h0
  obtain ⟨h0, _⟩ := IntOp.andi_eq_one.1 h0
  obtain ⟨hx, _⟩ := IntOp.andi_eq_one.1 h0
  exact ⟨all_real _ _ _ _ _ hx, all_real _ _ _ _ _ hγ, all_real _ _ _ _ _ hβ⟩

end Cert.KernelIdeal.Hand

end
-- ==== Proof.Bridge.lean ====
/-
  The two programs compute the same three results.

  new_x: entry (0, b, c) of the kernel program's value is the plane-sum formula of the two arrays the region wrote, and
  those arrays hold the plane sums and plane sums of squares of the reshaped activations, i.e. of the activations
  themselves read at (b, c, k / 32, k % 32); entry (0, b, c) of the reference's value is the normalize-then-pool
  formula of the activations; on real entries (the precondition) the two formulas agree.  The logits and the softmax
  are one chain of operations applied, in both programs, to new_x and to arguments on which the two memories agree, so
  they agree once new_x does.
-/
import proofs.«151176_j23983097381582_1_alg».proof.Defs
import proofs.«151176_j23983097381582_1_alg».proof.Proof.KITail
import proofs.«151176_j23983097381582_1_alg».proof.Proof.KIValue
import proofs.«151176_j23983097381582_1_alg».proof.Proof.KINewX
import proofs.«151176_j23983097381582_1_alg».proof.Proof.RefRun
import proofs.«151176_j23983097381582_1_alg».proof.Proof.RefNewX
import proofs.«151176_j23983097381582_1_alg».proof.Proof.Spec
import proofs.«151176_j23983097381582_1_alg».proof.Proof.Finite

open scoped BigOperators

noncomputable section

namespace Cert.Proof.Bridge

open Idealize.ShloMosaic Idealize.ShloMosaic.TcCoe Idealize.ShloMosaic.ValueIdx Idealize.SL.Sem
open Cert.LibReal

variable (m : (ℓ : Loc Cert.KernelIdeal.nD Cert.KernelIdeal.τ Cert.KernelIdeal.sig) → Buf (Elt Ideal) ℓ)

/-- The activations, γ and β of core `c`, as functions of explicit coordinates. -/
def xOf (c : Dev Cert.KernelIdeal.nD) (b : Fin 64) (ch : Fin 512) (h w : Fin 32) : EReal :=
  ((m ((c.tc : Thread Cert.KernelIdeal.nD Cert.KernelIdeal.τ).loc Cert.KernelIdeal.main_arg0)) : Cert.KernelIdeal.S64x512x32x32.Idx → EReal) (ix4 b ch h w)
def gOf (c : Dev Cert.KernelIdeal.nD) (ch : Fin 512) : EReal := ((m ((c.tc : Thread Cert.KernelIdeal.nD Cert.KernelIdeal.τ).loc Cert.KernelIdeal.main_arg3)) : Cert.KernelIdeal.S1x512.Idx → EReal) (ix2 (0 : Fin 1) ch)
def bOf (c : Dev Cert.KernelIdeal.nD) (ch : Fin 512) : EReal := ((m ((c.tc : Thread Cert.KernelIdeal.nD Cert.KernelIdeal.τ).loc Cert.KernelIdeal.main_arg4)) : Cert.KernelIdeal.S1x512.Idx → EReal) (ix2 (0 : Fin 1) ch)

/-- The first array the region wrote holds the plane sums of the activations. -/
theorem sum1_eq (c : Dev Cert.KernelIdeal.nD) (b : Fin 64) (ch : Fin 512) :
    Cert.KernelIdeal.Hand.sum1 m c (ix2 b ch) = Cert.Spec.planeSum (xOf m c) b ch := by
  rw [Cert.KernelIdeal.Hand.sum1_apply]
  unfold Cert.Spec.planeSum
  refine Finset.sum_congr rfl fun k _ => ?_
  rw [Cert.KernelIdeal.Hand.X2_apply]
  rfl

/-- The second holds the plane sums of squares. -/
theorem sum2_eq (c : Dev Cert.KernelIdeal.nD) (b : Fin 64) (ch : Fin 512) :
    Cert.KernelIdeal.Hand.sum2 m c (ix2 b ch) = Cert.Spec.planeSumSq (xOf m c) b ch := by
  rw [Cert.KernelIdeal.Hand.sum2_apply]
  unfold Cert.Spec.planeSumSq
  refine Finset.sum_congr rfl fun k _ => ?_
  rw [Cert.KernelIdeal.Hand.X2_apply]
  rfl

/-- new_x: the kernel program's value is the reference's function of the same arguments, under the precondition. -/
theorem newX_eq (hpre : Cert.Pre_KernelIdeal m) (c : Dev Cert.KernelIdeal.nD) :
    Cert.KernelIdeal.Hand.newXOf m c
      = Cert.ReferenceIdeal.Hand.newX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨hx, hg, hb⟩ := Cert.KernelIdeal.Hand.real_of_pre m hpre c
  funext j
  obtain ⟨a, b, ch, rfl⟩ : ∃ (a : Fin 1) (b : Fin 64) (ch : Fin 512), j = ix3 a b ch := ⟨j 0, j 1, j 2, eq_ix3 j⟩
  obtain rfl : a = 0 := Subsingleton.elim _ _
  refine (Cert.KernelIdeal.Hand.newX_apply _ _ _ _ b ch).trans ?_
  refine Eq.trans ?_ (Cert.ReferenceIdeal.Hand.newX_apply _ _ _ b ch).symm
  have e1 : (fun b c' => (Cert.KernelIdeal.Hand.sum1 m c) (ix2 b c')) = Cert.Spec.planeSum (xOf m c) :=
    funext fun b => funext fun c' => sum1_eq m c b c'
  have e2 : (fun b c' => (Cert.KernelIdeal.Hand.sum2 m c) (ix2 b c')) = Cert.Spec.planeSumSq (xOf m c) :=
    funext fun b => funext fun c' => sum2_eq m c b c'
  show Cert.Spec.pooledNorm (fun b c' => (Cert.KernelIdeal.Hand.sum1 m c) (ix2 b c')) (fun b c' => (Cert.KernelIdeal.Hand.sum2 m c) (ix2 b c'))
      (gOf m c) (bOf m c) b ch = Cert.Spec.normPooled (xOf m c) (gOf m c) (bOf m c) b ch
  rw [e1, e2]
  exact Cert.Spec.pooledNorm_eq_normPooled (xOf m c) (gOf m c) (bOf m c) (fun b c' h w => hx _) (fun c' => hg _) (fun c' => hb _) b ch

/-- The reference runs to the end, faults nowhere, and leaves its arguments unchanged: its run with the results dropped. -/
theorem frame_ri : Cert.frame_ReferenceIdeal := fun m' ρ' _ =>
  (θ_run Cert.ReferenceIdeal.defs _ _).mono (fun _ h c => (h c).2.2.2) (Cert.ReferenceIdeal.Hand.run_values (F := Ideal) m' ρ')

/-- Both programs run, with equal results: new_x by `newX_eq`, the logits and the softmax as one chain applied to equal
    values. -/
theorem algebraic : Cert.algebraic_KernelIdeal_ReferenceIdeal := by
  intro m ρ m' ρ' hpre hagree
  refine ⟨fun c => Cert.KernelIdeal.Hand.newXOf m c, fun c => Cert.KernelIdeal.Hand.logitsOf m c,
    fun c => Cert.KernelIdeal.Hand.probs (Cert.KernelIdeal.Hand.logitsOf m c), Cert.KernelIdeal.Hand.run_values m ρ, ?_⟩
  refine (θ_run Cert.ReferenceIdeal.defs _ _).mono (fun r h c => ?_) (Cert.ReferenceIdeal.Hand.run_values (F := Ideal) m' ρ')
  obtain ⟨h22, h46, h57, hargs⟩ := h c
  obtain ⟨e0, e1, e2, e3, e4, e5, e6⟩ := hagree c
  have hnx : Cert.ReferenceIdeal.Hand.newX (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = Cert.KernelIdeal.Hand.newXOf m c := by
    rw [e0, e3, e4]; exact (newX_eq m hpre c).symm
  refine ⟨h22.trans hnx, h46.trans ?_, h57.trans ?_, hargs⟩
  · rw [hnx, e1, e2, e5, e6]
  · rw [hnx, e1, e2, e5, e6]

end Cert.Proof.Bridge

end
-- ==== Proof.lean ====
/-
  The certificate's claim: a routing layer's batch-normalized, pooled activations, its logits and its softmax, computed
  by a one-pass reduction kernel (per-plane sums and sums of squares, then a few host lines) and by the plain
  normalize-then-pool reference, are equal over the extended reals whenever the inputs are finite.

  Frames.  The kernel's program (at both float instances) is one reshape, one region on an 8 × 4 grid whose body
  loads a block and stores two lane reductions of it, and straight-line host lines that write only their own buffers:
  it terminates without fault and leaves its arguments as launched.  The reference is a straight line of host
  operations.  The idealization rewrote nothing, so there is nothing to preserve.

  Values.  new_x agrees by E[(x − μ)²] = E[x²] − μ² and by the affine map commuting with the spatial mean, on real
  entries; the logits and the softmax are the same operations applied to equal values.
-/
import proofs.«151176_j23983097381582_1_alg».proof.Defs
import proofs.«151176_j23983097381582_1_alg».proof.Proof.Gen.Kernel
import proofs.«151176_j23983097381582_1_alg».proof.Proof.Gen.KernelIdeal
import proofs.«151176_j23983097381582_1_alg».proof.Proof.Gen.ReferenceIdeal
import proofs.«151176_j23983097381582_1_alg».proof.Proof.Gen.Pre_finite_inputs
import proofs.«151176_j23983097381582_1_alg».proof.Proof.KFrame
import proofs.«151176_j23983097381582_1_alg».proof.Proof.KIFrame
import proofs.«151176_j23983097381582_1_alg».proof.Proof.Bridge

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.Bridge.frame_ri, trivial, Cert.Proof.Bridge.algebraic⟩

end Cert.Proof

end
